-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x2048 : Shape := ⟨3, ![1, 4096, 2048]⟩
abbrev S2048x2048 : Shape := ⟨2, ![2048, 2048]⟩
abbrev S2048 : Shape := ⟨1, ![2048]⟩
abbrev S_ : Shape := ⟨0, ![]⟩

class Facts : Prop where
  bcast_S_S1x4096x2048 : S_.BroadcastsInDim S1x4096x2048 (![] : Fin 0 → Fin S1x4096x2048.rank)
  reducesTo_S1x4096x2048_S_d0_1_2 : S1x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S2048 .f32) (main_arg12 : FVec F S2048 .f32) (main_arg13 : FVec F S2048 .f32) (main_arg14 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1x4096x2048 .f32) (main_arg1 : FVec F S1x4096x2048 .f32) (main_arg2 : FVec F S1x4096x2048 .f32) (main_arg3 : FVec F S2048x2048 .f32) (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) : IVec S_ 1 :=
  let main_v0 : FVec F S1x4096x2048 .f32 := Host.absf main_arg0
  let main_cst : FVec F S_ .f32 := constant S_ .f32 0x7F800000#32
  let main_v1 : FVec F S1x4096x2048 .f32 := broadcastInDim S1x4096x2048 ![] bcast_S_S1x4096x2048 main_cst
  let main_v2 : IVec S1x4096x2048 1 := cmpf .olt main_v0 main_v1
  let main_c : IVec S_ 1 := constantI S_ 1 1#1
  let main_v3 : IVec S_ 1 := (fun x v => Host.reduce IntOp.andi x v reducesTo_S1x4096x2048_S_d0_1_2 h_S_) main_v2 main_c
  let main_v4 : FVec F S1x4096x2048 .f32 := Host.absf main_arg1
  let main_cst_0 : FVec F S_ .f32 := constant S_ .f32 0x7F800000#32
  let main_v5 : FVec F S1x4096x2048 .f32 := broadcastInDim S1x4096x2048 ![] bcast_S_S1x4096x2048 main_cst_0
  let main_v6 : IVec S1x4096x2048 1 := cmpf .olt main_v4 main_v5
  let main_c_1 : IVec S_ 1 := constantI S_ 1 1#1
  let main_v7 : IVec S_ 1 := (fun x v => Host.reduce IntOp.andi x v reducesTo_S1x4096x2048_S_d0_1_2 h_S_) main_v6 main_c_1
  let main_v8 : IVec S_ 1 := andi main_v3 main_v7
  let main_v9 : FVec F S1x4096x2048 .f32 := Host.absf main_arg2
  let main_cst_2 : FVec F S_ .f32 := constant S_ .f32 0x7F800000#32
  let main_v10 : FVec F S1x4096x2048 .f32 := broadcastInDim S1x4096x2048 ![] bcast_S_S1x4096x2048 main_cst_2
  let main_v11 : IVec S1x4096x2048 1 := cmpf .olt main_v9 main_v10
  let main_c_3 : IVec S_ 1 := constantI S_ 1 1#1
  let main_v12 : IVec S_ 1 := (fun x v => Host.reduce IntOp.andi x v reducesTo_S1x4096x2048_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1x4096x2048 : Shape := ⟨3, ![1, 4096, 2048]⟩
abbrev S2048x2048 : Shape := ⟨2, ![2048, 2048]⟩
abbrev S2048 : Shape := ⟨1, ![2048]⟩
abbrev S4096x2048 : Shape := ⟨2, ![4096, 2048]⟩
abbrev S1x2048 : Shape := ⟨2, ![1, 2048]⟩
abbrev S512x2048 : Shape := ⟨2, ![512, 2048]⟩
abbrev S512x256 : Shape := ⟨2, ![512, 256]⟩
abbrev S2048x256 : Shape := ⟨2, ![2048, 256]⟩
abbrev S1x256 : Shape := ⟨2, ![1, 256]⟩

abbrev nBuf : Space → Nat
  | .hbm => 36
  | .vmem => 34
  | .smem => 0
  | _ => 0

abbrev bufTy : (tb : Table) → Fin (tcTables nBuf tb) → BufTy
  | .hbm, ⟨0, _⟩ => ⟨S1x4096x2048, .f32⟩
  | .hbm, ⟨1, _⟩ => ⟨S1x4096x2048, .f32⟩
  | .hbm, ⟨2, _⟩ => ⟨S1x4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S4096x2048, .f32⟩
  | .hbm, ⟨16, _⟩ => ⟨S4096x2048, .bf16⟩
  | .hbm, ⟨17, _⟩ => ⟨S4096x2048, .f32⟩
  | .hbm, ⟨18, _⟩ => ⟨S4096x2048, .bf16⟩
  | .hbm, ⟨19, _⟩ => ⟨S4096x2048, .f32⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S2048x2048, .bf16⟩
  | .hbm, ⟨27, _⟩ => ⟨S2048x2048, .bf16⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S1x4096x2048, .f32⟩
  | .hbm, ⟨35, _⟩ => ⟨S1x4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  shapeCasts_S1x4096x2048_S4096x2048 : S1x4096x2048.ShapeCasts S4096x2048
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  shapeCasts_S4096x2048_S1x4096x2048 : S4096x2048.ShapeCasts S1x4096x2048
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .bf16 = 32 ∨ (Rect.block (s := S2048x2048) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x2048.size a
  hwx0_4 : ∀ i : grid0.Coords, EltTy.bits .bf16 = 32 ∨ (Rect.block (s := S2048x2048) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x2048.size a
  hwx0_5 : ∀ i : grid0.Coords, EltTy.bits .bf16 = 32 ∨ (Rect.block (s := S2048x2048) S2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .bf16 = 32 ∨ (Rect.block (s := S2048x2048) S2048x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .bf16 = 32 ∨ (Rect.block (s := S2048x2048) S2048x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x2048.size a
  hwx0_8 : ∀ i : grid0.Coords, EltTy.bits .bf16 = 32 ∨ (Rect.block (s := S2048x2048) S2048x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x2048.size a
  hwx0_9 : ∀ i : grid0.Coords, EltTy.bits .bf16 = 32 ∨ (Rect.block (s := S2048x2048) S2048x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S2048x2048.size a
  hwx0_10 : ∀ i : grid0.Coords, EltTy.bits .bf16 = 32 ∨ (Rect.block (s := S2048x2048) S2048x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S4096x2048.size a
  hwx0_15 : ∀ i : grid0.Coords, EltTy.bits .f32 = 32 ∨ (Rect.block (s := S4096x2048) S512x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S4096x2048.size a
  hwx0_16 : ∀ i : grid0.Coords, EltTy.bits .f32 = 32 ∨ (Rect.block (s := S4096x2048) S512x256.size (cc0_transform_16 i) (hinb0_16 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S2048x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v12) S2048x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v16) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v17_0) S512x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v17_1) S512x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S1x4096x2048 : Shape := ⟨3, ![1, 4096, 2048]⟩
abbrev S2048x2048 : Shape := ⟨2, ![2048, 2048]⟩
abbrev S2048 : Shape := ⟨1, ![2048]⟩
abbrev S4096x2048 : Shape := ⟨2, ![4096, 2048]⟩
abbrev S2048x8192 : Shape := ⟨2, ![2048, 8192]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x4096x2048, .f32⟩
  | .hbm, ⟨2, _⟩ => ⟨S1x4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S2048x8192, .f32⟩
  | .hbm, ⟨19, _⟩ => ⟨S2048x8192, .f32⟩
  | .hbm, ⟨20, _⟩ => ⟨S8192, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S1x8192, .f32⟩
  | .hbm, ⟨25, _⟩ => ⟨S4096x8192, .f32⟩
  | .hbm, ⟨26, _⟩ => ⟨S4096x8192, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S1x4096x2048, .f32⟩
  | .hbm, ⟨62, _⟩ => ⟨S1x4096x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  shapeCasts_S1x4096x2048_S4096x2048 : S1x4096x2048.ShapeCasts S4096x2048
  concatenates_S2048x2048_S2048x2048_S2048x2048_S2048x2048_S2048x8192_d1 : Shape.Concatenates [S2048x2048, S2048x2048, S2048x2048, S2048x2048] S2048x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  bcast_S4096x2048_S1x4096x2048_1_2 : S4096x2048.BroadcastsInDim S1x4096x2048 (![1, 2] : Fin 2 → Fin S1x4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.CellSpec.lean ====
/-
  One step of an LSTM cell, entry by entry, as a function of the fifteen argument arrays.

  The inputs are a batch of 4096 rows: the step's input `x`, the previous hidden state `h` and the previous cell
  state `c`, each stored as a [1, 4096, 2048] array; for each of the four gates (input, forget, output, candidate)
  an input weight matrix and a hidden weight matrix, both [2048, 2048], and a bias vector of length 2048.

  A gate's pre-activation at row `p`, column `q` is
      (sum over k of x[p,k] * wx[k,q]) + (sum over k of h[p,k] * wh[k,q]) + b[q],
  with exactly this grouping of the two sums and the bias: both programs add in this order, so no law of addition
  is needed to compare them. With sigma the logistic function 1 / (1 + e^(-t)), the new cell state is
      c' = c * sigma(forget) + sigma(input) * tanh(candidate)
  and the new hidden state is
      h' = sigma(output) * tanh(c').
  Everything is read over the extended reals, where the logistic function and tanh are total (their values at the
  two infinities are the limits) and sums and products are the extended reals' own.
-/
import Idealize.ShloMosaic.PureOps.Ideal
import Idealize.ShloMosaic.Lib.ValueIdx

noncomputable section

open scoped BigOperators

namespace Cert.LstmCell

open Idealize.ShloMosaic Idealize.ShloMosaic.ValueIdx

/-- A batch of 4096 rows of 2048 entries behind a leading axis of extent one: `x`, `h`, `c` and both results. -/
abbrev Act : Type := (⟨3, ![1, 4096, 2048]⟩ : Shape).Idx → EReal
/-- A gate's weight matrix, rows indexed by the contracted feature, columns by the output feature. -/
abbrev Wgt : Type := (⟨2, ![2048, 2048]⟩ : Shape).Idx → EReal
/-- A gate's bias, one entry per output feature. -/
abbrev Bias : Type := (⟨1, ![2048]⟩ : Shape).Idx → EReal

/-- A gate's pre-activation at row `p`, column `q`: the input's product, plus the hidden state's product, plus the bias,
    grouped in that order. -/
def pre (x h : Act) (wx wh : Wgt) (b : Bias) (p : Fin 4096) (q : Fin 2048) : EReal :=
  (∑ k : Fin 2048, x (ix3 (0 : Fin 1) p k) * wx (ix2 k q)) + (∑ k : Fin 2048, h (ix3 (0 : Fin 1) p k) * wh (ix2 k q)) + b (ix1 q)

/-- The new cell state at row `p`, column `q`: the old one scaled by the forget gate, plus the input gate times the
    squashed candidate. (The output gate's arrays do not enter.) -/
def cellAt (x h c : Act) (wxi whi wxf whf wxc whc : Wgt) (bi bf bc : Bias) (p : Fin 4096) (q : Fin 2048) : EReal :=
  c (ix3 (0 : Fin 1) p q) * Ideal.logistic (pre x h wxf whf bf p q)
    + Ideal.logistic (pre x h wxi whi bi p q) * Ideal.tanh (pre x h wxc whc bc p q)

/-- The new hidden state at row `p`, column `q`: the output gate times the squashed new cell state. -/
def hidAt (x h c : Act) (wxi whi wxf whf wxo who wxc whc : Wgt) (bi bf bo bc : Bias) (p : Fin 4096) (q : Fin 2048) : EReal :=
  Ideal.logistic (pre x h wxo who bo p q) * Ideal.tanh (cellAt x h c wxi whi wxf whf wxc whc bi bf bc p q)

/-- The new cell state as a whole array, the arguments in the programs' order. -/
def cell (x h c : Act) (wxi whi wxf whf wxo who wxc whc : Wgt) (bi bf bo bc : Bias) : Act :=
  fun i => cellAt x h c wxi whi wxf whf wxc whc bi bf bc (i 1) (i 2)

/-- The new hidden state as a whole array, the arguments in the programs' order. -/
def hid (x h c : Act) (wxi whi wxf whf wxo who wxc whc : Wgt) (bi bf bo bc : Bias) : Act :=
  fun i => hidAt x h c wxi whi wxf whf wxo who wxc whc bi bf bo bc (i 1) (i 2)

theorem cell_ix3 (x h c : Act) (wxi whi wxf whf wxo who wxc whc : Wgt) (bi bf bo bc : Bias) (a : Fin 1) (p : Fin 4096) (q : Fin 2048) :
    cell x h c wxi whi wxf whf wxo who wxc whc bi bf bo bc (ix3 a p q) = cellAt x h c wxi whi wxf whf wxc whc bi bf bc p q := rfl

theorem hid_ix3 (x h c : Act) (wxi whi wxf whf wxo who wxc whc : Wgt) (bi bf bo bc : Bias) (a : Fin 1) (p : Fin 4096) (q : Fin 2048) :
    hid x h c wxi whi wxf whf wxo who wxc whc bi bf bo bc (ix3 a p q) = hidAt x h c wxi whi wxf whf wxo who wxc whc bi bf bo bc p q := rfl

end Cert.LstmCell

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibColToRow.lean ====
/-
  A column laid out again as a row and repeated down the rows, read at an entry (a general lemma: nothing here depends
  on a program).

  A column [A, 1] and a row [1, A] hold the same A entries in the same row-major order, so the row at (0, q) is the
  column at (q, 0).  A row [1, A] broadcast to B rows holds at (p, q) the row's entry q.  Together: a column turned into
  a row and broadcast to [B, A] holds at (p, q) the column's entry q — the value that depends on the column index
  alone.  Any sizes A, B.
-/
import Idealize.ShloMosaic.Lib.ValueIdx
import Idealize.ShloMosaic.Lib.Pipeline.Value

noncomputable section

namespace Cert.Lib.ColToRow

open Idealize.ShloMosaic Idealize.ShloMosaic.ValueIdx

/-- The row [1, A] made of a column [A, 1], at (0, q), is the column at (q, 0). -/
theorem colAsRow_apply {α : Type} {A : Nat} (c : (⟨2, ![A, 1]⟩ : Shape).Idx → α)
    (h : (⟨2, ![A, 1]⟩ : Shape).ShapeCasts ⟨2, ![1, A]⟩) (z : Fin 1) (q : Fin A) :
    shapeCast ⟨2, ![1, A]⟩ c h (ix2 z q) = c (ix2 q (0 : Fin 1)) := by
  refine shapeCast_apply c h (ix2 z q) (ix2 q (0 : Fin 1)) ?_
  rw [Shape.rowMajor_val_two, Shape.rowMajor_val_two]
  obtain rfl : z = 0 := Subsingleton.elim _ _
  show q.val * 1 + 0 = 0 * A + q.val
  omega

/-- A row [1, A] broadcast to B rows, at (p, q), is the row at (0, q). -/
theorem bcastRowMat_apply {α : Type} {A B : Nat} (r : (⟨2, ![1, A]⟩ : Shape).Idx → α)
    (h : (⟨2, ![1, A]⟩ : Shape).Broadcasts ⟨2, ![B, A]⟩) (p : Fin B) (q : Fin A) :
    broadcastTo ⟨2, ![B, A]⟩ r h (ix2 p q) = r (ix2 (0 : Fin 1) q) := by
  refine broadcastTo_apply r h (ix2 p q) (ix2 (0 : Fin 1) q) ?_
  intro a
  match a with
  | ⟨0, _⟩ => simp
  | ⟨1, _⟩ =>
    show q.val = if A = 1 then 0 else q.val
    split
    · have := q.isLt; omega
    · rfl

/-- A column turned into a row and broadcast to B rows, at (p, q), is the column at (q, 0). -/
theorem colAsRowBcast_apply {α : Type} {A B : Nat} (c : (⟨2, ![A, 1]⟩ : Shape).Idx → α)
    (h1 : (⟨2, ![A, 1]⟩ : Shape).ShapeCasts ⟨2, ![1, A]⟩) (h2 : (⟨2, ![1, A]⟩ : Shape).Broadcasts ⟨2, ![B, A]⟩)
    (p : Fin B) (q : Fin A) :
    broadcastTo ⟨2, ![B, A]⟩ (shapeCast ⟨2, ![1, A]⟩ c h1) h2 (ix2 p q) = c (ix2 q (0 : Fin 1)) :=
  (bcastRowMat_apply _ h2 p q).trans (colAsRow_apply c h1 0 q)

end Cert.Lib.ColToRow

end
-- ==== Proof.KernelBlock.lean ====
/-
  What the kernel's body computes for one tile, read at one entry.

  At a grid point the body holds a tile of 512 rows: the rows' inputs `xb` and previous hidden states `hb` at
  full width 2048, the rows' previous cell states on 256 columns, and for each of the four gates the 256 matching
  columns of its two weight matrices and of its bias (the bias as one row). It forms each gate's pre-activation by
  two matrix products into zero accumulators, added, plus the bias row repeated down the 512 rows; then the two
  results of the LSTM step. Read at row `p`, column `q` of the tile, over the extended reals, a product into a zero
  accumulator is the plain sum over the 2048 contracted entries, a shape cast to the same shape moves nothing, and the
  repeated bias row is its entry `q`; so each pre-activation is
      (sum over k of xb[p,k] * wx[k,q]) + (sum over k of hb[p,k] * wh[k,q]) + b[0,q].
-/
import proofs.«144069_j33423435498395_1_alg».proof.Proof.Gen.KernelIdeal.Frame
import proofs.«144069_j33423435498395_1_alg».proof.Proof.LibMatmul
import proofs.«144069_j33423435498395_1_alg».proof.Proof.LibColToRow
import proofs.«144069_j33423435498395_1_alg».proof.Proof.CellSpec
import Idealize.ShloMosaic.Lib.ValueIdx
import Idealize.ShloMosaic.Lib.Pipeline.Value
import Idealize.ShloMosaic.PureOps.Ideal.Laws

noncomputable section

open scoped BigOperators

namespace Cert.LstmCell.Block

open Cert.KernelIdeal Cert.KernelIdeal.Gen Idealize.ShloMosaic Idealize.ShloMosaic.ValueIdx

/-- A gate's pre-activation at row `p`, column `q` of a tile, from the tile's blocks. -/
def blkPre (xb hb : FVec Ideal S512x2048 .bf16) (wx wh : FVec Ideal S2048x256 .bf16) (b : FVec Ideal S1x256 .f32)
    (p : Fin 512) (q : Fin 256) : EReal :=
  (∑ k : Fin 2048, xb (ix2 p k) * wx (ix2 k q)) + (∑ k : Fin 2048, hb (ix2 p k) * wh (ix2 k q)) + b (ix2 (0 : Fin 1) q)

/-- The two products into zero accumulators, added, plus the bias row repeated down the rows: at (p, q) the
    pre-activation. -/
theorem gate_core (l1 l2 : FVec Ideal S512x2048 .bf16) (w1 w2 : FVec Ideal S2048x256 .bf16) (b : FVec Ideal S1x256 .f32)
    (p : Fin 512) (q : Fin 256) :
    addf (addf (matmul dot_S512x2048_S2048x256_S512x256_1_0_0_1_n_n none l1 w1 (constant S512x256 .f32 0x00000000#32))
               (matmul dot_S512x2048_S2048x256_S512x256_1_0_0_1_n_n none l2 w2 (constant S512x256 .f32 0x00000000#32)))
         (broadcastTo S512x256 b broadcasts_S1x256_S512x256) (ix2 p q)
      = blkPre l1 l2 w1 w2 b p q := by
  have e1 : (matmul dot_S512x2048_S2048x256_S512x256_1_0_0_1_n_n none l1 w1 (constant S512x256 .f32 0x00000000#32)) (ix2 p q)
      = ∑ k : Fin 2048, (l1 (ix2 p k) : EReal) * (w1 (ix2 k q) : EReal) :=
    Cert.Lib.Matmul.matmul_zero_apply none l1 w1 p q
  have e2 : (matmul dot_S512x2048_S2048x256_S512x256_1_0_0_1_n_n none l2 w2 (constant S512x256 .f32 0x00000000#32)) (ix2 p q)
      = ∑ k : Fin 2048, (l2 (ix2 p k) : EReal) * (w2 (ix2 k q) : EReal) :=
    Cert.Lib.Matmul.matmul_zero_apply none l2 w2 p q
  have e3 : broadcastTo S512x256 b broadcasts_S1x256_S512x256 (ix2 p q) = b (ix2 (0 : Fin 1) q) :=
    Cert.Lib.ColToRow.bcastRowMat_apply b broadcasts_S1x256_S512x256 p q
  unfold blkPre
  rw [← e1, ← e2, ← e3]
  rfl

/-- A shape cast to the same shape in front of each operand changes nothing. -/
theorem gate_cast (l1 l2 : FVec Ideal S512x2048 .bf16) (w1 w2 : FVec Ideal S2048x256 .bf16) (b : FVec Ideal S1x256 .f32)
    (p : Fin 512) (q : Fin 256) :
    addf (addf (matmul dot_S512x2048_S2048x256_S512x256_1_0_0_1_n_n none l1 (shapeCast S2048x256 w1 shapeCasts_S2048x256_S2048x256) (constant S512x256 .f32 0x00000000#32))
               (matmul dot_S512x2048_S2048x256_S512x256_1_0_0_1_n_n none l2 (shapeCast S2048x256 w2 shapeCasts_S2048x256_S2048x256) (constant S512x256 .f32 0x00000000#32)))
         (broadcastTo S512x256 (shapeCast S1x256 b shapeCasts_S1x256_S1x256) broadcasts_S1x256_S512x256) (ix2 p q)
      = blkPre l1 l2 w1 w2 b p q := by
  rw [shapeCast_self, shapeCast_self, shapeCast_self]
  exact gate_core l1 l2 w1 w2 b p q

/-- The input gate's payload at (p, q): the logistic function of its pre-activation. (The forget gate's payload is the
    same function of its own blocks.) -/
theorem pay6_apply (v0 v2 : FVec Ideal S512x2048 .bf16) (v6 v9 : FVec Ideal S2048x256 .bf16) (v13 : FVec Ideal S1x256 .f32)
    (p : Fin 512) (q : Fin 256) :
    k0_pay6 (F := Ideal) v0 v2 v6 v9 v13 (ix2 p q) = Ideal.logistic (blkPre v0 v2 v6 v9 v13 p q) := by
  have e : k0_pay6 (F := Ideal) v0 v2 v6 v9 v13 (ix2 p q)
      = Ideal.logistic (addf (addf (matmul dot_S512x2048_S2048x256_S512x256_1_0_0_1_n_n none (shapeCast S512x2048 v0 shapeCasts_S512x2048_S512x2048) (shapeCast S2048x256 v6 shapeCasts_S2048x256_S2048x256) (constant S512x256 .f32 0x00000000#32))
               (matmul dot_S512x2048_S2048x256_S512x256_1_0_0_1_n_n none (shapeCast S512x2048 v2 shapeCasts_S512x2048_S512x2048) (shapeCast S2048x256 v9 shapeCasts_S2048x256_S2048x256) (constant S512x256 .f32 0x00000000#32)))
         (broadcastTo S512x256 (shapeCast S1x256 v13 shapeCasts_S1x256_S1x256) broadcasts_S1x256_S512x256) (ix2 p q)) := rfl
  rw [e, shapeCast_self v0, shapeCast_self v2]
  exact congrArg Ideal.logistic (gate_cast v0 v2 v6 v9 v13 p q)

theorem pay7_apply (v0 v2 : FVec Ideal S512x2048 .bf16) (v18 v21 : FVec Ideal S2048x256 .bf16) (v25 : FVec Ideal S1x256 .f32)
    (p : Fin 512) (q : Fin 256) :
    k0_pay7 (F := Ideal) v0 v2 v18 v21 v25 (ix2 p q) = Ideal.logistic (blkPre v0 v2 v18 v21 v25 p q) :=
  pay6_apply v0 v2 v18 v21 v25 p q

/-- The new cell state's payload at (p, q), from the tile's cell states, the two gates already formed, and the
    candidate's blocks. -/
theorem pay1_apply (v1 v3 : FVec Ideal S512x2048 .bf16) (v5 v17 v29 : FVec Ideal S512x256 .f32)
    (v42 v45 : FVec Ideal S2048x256 .bf16) (v49 : FVec Ideal S1x256 .f32) (p : Fin 512) (q : Fin 256) :
    k0_pay1 (F := Ideal) v1 v3 v5 v17 v29 v42 v45 v49 (ix2 p q)
      = v5 (ix2 p q) * v29 (ix2 p q) + v17 (ix2 p q) * Ideal.tanh (blkPre v1 v3 v42 v45 v49 p q) := by
  have e : k0_pay1 (F := Ideal) v1 v3 v5 v17 v29 v42 v45 v49 (ix2 p q)
      = v5 (ix2 p q) * v29 (ix2 p q) + v17 (ix2 p q) * Ideal.tanh (addf (addf (matmul dot_S512x2048_S2048x256_S512x256_1_0_0_1_n_n none v1 (shapeCast S2048x256 v42 shapeCasts_S2048x256_S2048x256) (constant S512x256 .f32 0x00000000#32))
               (matmul dot_S512x2048_S2048x256_S512x256_1_0_0_1_n_n none v3 (shapeCast S2048x256 v45 shapeCasts_S2048x256_S2048x256) (constant S512x256 .f32 0x00000000#32)))
         (broadcastTo S512x256 (shapeCast S1x256 v49 shapeCasts_S1x256_S1x256) broadcasts_S1x256_S512x256) (ix2 p q)) := rfl
  rw [e, gate_cast v1 v3 v42 v45 v49 p q]

/-- The new hidden state's payload at (p, q): the output gate times the squashed new cell state. The output gate's
    input product arrives already formed (`v32`). -/
theorem pay2_apply (v1 v3 : FVec Ideal S512x2048 .bf16) (v5 v17 v29 : FVec Ideal S512x256 .f32)
    (l0 : FVec Ideal S512x2048 .bf16) (w30 : FVec Ideal S2048x256 .bf16)
    (v33 : FVec Ideal S2048x256 .bf16) (v37 : FVec Ideal S1x256 .f32)
    (v42 v45 : FVec Ideal S2048x256 .bf16) (v49 : FVec Ideal S1x256 .f32) (p : Fin 512) (q : Fin 256) :
    k0_pay2 (F := Ideal) v1 v3 v5 v17 v29 (k0_pay8 l0 w30) v33 v37 v42 v45 v49 (ix2 p q)
      = Ideal.logistic (blkPre l0 v3 w30 v33 v37 p q)
          * Ideal.tanh (v5 (ix2 p q) * v29 (ix2 p q) + v17 (ix2 p q) * Ideal.tanh (blkPre v1 v3 v42 v45 v49 p q)) := by
  have e : k0_pay2 (F := Ideal) v1 v3 v5 v17 v29 (k0_pay8 l0 w30) v33 v37 v42 v45 v49 (ix2 p q)
      = Ideal.logistic (addf (addf (matmul dot_S512x2048_S2048x256_S512x256_1_0_0_1_n_n none (shapeCast S512x2048 l0 shapeCasts_S512x2048_S512x2048) (shapeCast S2048x256 w30 shapeCasts_S2048x256_S2048x256) (constant S512x256 .f32 0x00000000#32))
               (matmul dot_S512x2048_S2048x256_S512x256_1_0_0_1_n_n none v3 (shapeCast S2048x256 v33 shapeCasts_S2048x256_S2048x256) (constant S512x256 .f32 0x00000000#32)))
         (broadcastTo S512x256 (shapeCast S1x256 v37 shapeCasts_S1x256_S1x256) broadcasts_S1x256_S512x256) (ix2 p q))
        * Ideal.tanh (k0_pay1 (F := Ideal) v1 v3 v5 v17 v29 v42 v45 v49 (ix2 p q)) := rfl
  rw [e, shapeCast_self l0, gate_cast l0 v3 w30 v33 v37 p q, pay1_apply]

/-- The three loads the body passes through a shape cast to their own shape are unchanged by it. -/
theorem pay3_eq (v : FVec Ideal S512x2048 .bf16) : k0_pay3 (F := Ideal) v = v := shapeCast_self v _
theorem pay4_eq (v : FVec Ideal S512x2048 .bf16) : k0_pay4 (F := Ideal) v = v := shapeCast_self v _
theorem pay5_eq (v : FVec Ideal S512x256 .f32) : k0_pay5 (F := Ideal) v = v := shapeCast_self v _

theorem hz : (![0, 0] : Fin 2 → Nat) = fun _ => 0 := funext fun a => by
  match a with
  | ⟨0, _⟩ => rfl
  | ⟨1, _⟩ => rfl

/-- The tile of the new cell state the body leaves, at (p, q). Blocks in the staging order: rows' inputs, rows' hidden
    states, rows' cell states, then the gates' weight columns (input, forget, output, candidate; each the input matrix then
    the hidden one), then the four bias rows in the same gate order. -/
theorem cellTile_apply (x0 x1 : FVec Ideal S512x2048 .bf16) (x2 : FVec Ideal S512x256 .f32)
    (x3 x4 x5 x6 x7 x8 x9 x10 : FVec Ideal S2048x256 .bf16) (x11 x12 x13 x14 : FVec Ideal S1x256 .f32) (p : Fin 512) (q : Fin 256) :
    out0_16 (F := Ideal) x0 x1 x2 x3 x4 x5 x6 x7 x8 x9 x10 x11 x12 x13 x14 (ix2 p q)
      = x2 (ix2 p q) * Ideal.logistic (blkPre x0 x1 x5 x6 x12 p q)
          + Ideal.logistic (blkPre x0 x1 x3 x4 x11 p q) * Ideal.tanh (blkPre x0 x1 x9 x10 x14 p q) := by
  unfold out0_16
  rw [View.canon_unit_zero hz]
  simp only [View.ld_unit_zero (S := S512x2048) hz, View.ld_unit_zero (S := S512x256) hz,
    View.ld_unit_zero (S := S2048x256) hz, View.ld_unit_zero (S := S1x256) hz]
  refine (pay1_apply (k0_pay3 x0) (k0_pay4 x1) (k0_pay5 x2) (k0_pay6 x0 x1 x3 x4 x11) (k0_pay7 x0 x1 x5 x6 x12) x9 x10 x14 p q).trans ?_
  rw [pay6_apply, pay7_apply, pay3_eq, pay4_eq, pay5_eq]

/-- The tile of the new hidden state the body leaves, at (p, q). -/
theorem hidTile_apply (x0 x1 : FVec Ideal S512x2048 .bf16) (x2 : FVec Ideal S512x256 .f32)
    (x3 x4 x5 x6 x7 x8 x9 x10 : FVec Ideal S2048x256 .bf16) (x11 x12 x13 x14 : FVec Ideal S1x256 .f32) (p : Fin 512) (q : Fin 256) :
    out0_15 (F := Ideal) x0 x1 x2 x3 x4 x5 x6 x7 x8 x9 x10 x11 x12 x13 x14 (ix2 p q)
      = Ideal.logistic (blkPre x0 x1 x7 x8 x13 p q)
          * Ideal.tanh (x2 (ix2 p q) * Ideal.logistic (blkPre x0 x1 x5 x6 x12 p q)
              + Ideal.logistic (blkPre x0 x1 x3 x4 x11 p q) * Ideal.tanh (blkPre x0 x1 x9 x10 x14 p q)) := by
  unfold out0_15
  rw [View.canon_unit_zero hz]
  simp only [View.ld_unit_zero (S := S512x2048) hz, View.ld_unit_zero (S := S512x256) hz,
    View.ld_unit_zero (S := S2048x256) hz, View.ld_unit_zero (S := S1x256) hz]
  refine (pay2_apply (k0_pay3 x0) (k0_pay4 x1) (k0_pay5 x2) (k0_pay6 x0 x1 x3 x4 x11) (k0_pay7 x0 x1 x5 x6 x12) x0 x7 x8 x13 x9 x10 x14 p q).trans ?_
  rw [pay6_apply, pay7_apply, pay3_eq, pay4_eq, pay5_eq]

/-- A tile's pre-activation is the whole arrays' at the tile's place, once each block entry it reads is the matching
    array entry: the rows' entries at row `P`, the weight columns' at column `Q`, the bias row's at `Q`. -/
theorem blkPre_eq_pre (xb hb : FVec Ideal S512x2048 .bf16) (wx wh : FVec Ideal S2048x256 .bf16) (b : FVec Ideal S1x256 .f32)
    (X H : Cert.LstmCell.Act) (WX WH : Cert.LstmCell.Wgt) (B : Cert.LstmCell.Bias)
    (p : Fin 512) (q : Fin 256) (P : Fin 4096) (Q : Fin 2048)
    (hx : ∀ k : Fin 2048, xb (ix2 p k) = X (ix3 (0 : Fin 1) P k)) (hh : ∀ k : Fin 2048, hb (ix2 p k) = H (ix3 (0 : Fin 1) P k))
    (hwx : ∀ k : Fin 2048, wx (ix2 k q) = WX (ix2 k Q)) (hwh : ∀ k : Fin 2048, wh (ix2 k q) = WH (ix2 k Q))
    (hbias : b (ix2 (0 : Fin 1) q) = B (ix1 Q)) :
    blkPre xb hb wx wh b p q = Cert.LstmCell.pre X H WX WH B P Q := by
  unfold blkPre Cert.LstmCell.pre
  simp only [hx, hh, hwx, hwh, hbias]

end Cert.LstmCell.Block

end
-- ==== Proof.LibMergeRows.lean ====
/-
  Two leading axes merged into one, and one leading axis split into two, read at an entry (a general lemma: nothing
  here depends on a program).

  An array [A, B, C] and an array [A·B, C] hold the same entries in the same row-major order: entry (a, b, c) of the
  first sits where entry (a·B + b, c) of the second does. So a shape cast from one to the other, in either
  direction, moves no entry: it only renames (a, b) as the row a·B + b. Any sizes A, B, C; the merged extent is a
  parameter N with the row r given together with the equation r = a·B + b, so that a literal extent (16384 for
  16·1024) is met without arithmetic on types.
-/
import Idealize.ShloMosaic.Lib.ValueIdx
import Idealize.ShloMosaic.Lib.Pipeline.Value

noncomputable section

namespace Cert.Lib.MergeRows

open Idealize.ShloMosaic Idealize.ShloMosaic.ValueIdx

/-- [A, B, C] viewed as [N, C]: the entry at row a·B + b, column c, is the entry (a, b, c). -/
theorem merge_apply {α : Type} {A B C N : Nat} (x : (⟨3, ![A, B, C]⟩ : Shape).Idx → α)
    (h : (⟨3, ![A, B, C]⟩ : Shape).ShapeCasts ⟨2, ![N, C]⟩) (a : Fin A) (b : Fin B) (c : Fin C) (r : Fin N)
    (hr : r.val = a.val * B + b.val) :
    shapeCast ⟨2, ![N, C]⟩ x h (ix2 r c) = x (ix3 a b c) := by
  refine shapeCast_apply x h (ix2 r c) (ix3 a b c) ?_
  rw [Shape.rowMajor_val_three, Shape.rowMajor_val_two]
  show (a.val * B + b.val) * C + c.val = r.val * C + c.val
  rw [hr]

/-- [N, C] viewed as [A, B, C]: the entry (a, b, c) is the entry at row a·B + b, column c. -/
theorem split_apply {α : Type} {A B C N : Nat} (x : (⟨2, ![N, C]⟩ : Shape).Idx → α)
    (h : (⟨2, ![N, C]⟩ : Shape).ShapeCasts ⟨3, ![A, B, C]⟩) (a : Fin A) (b : Fin B) (c : Fin C) (r : Fin N)
    (hr : r.val = a.val * B + b.val) :
    shapeCast ⟨3, ![A, B, C]⟩ x h (ix3 a b c) = x (ix2 r c) := by
  refine shapeCast_apply x h (ix3 a b c) (ix2 r c) ?_
  rw [Shape.rowMajor_val_three, Shape.rowMajor_val_two]
  show r.val * C + c.val = (a.val * B + b.val) * C + c.val
  rw [hr]

end Cert.Lib.MergeRows

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.KernelReads.lean ====
/-
  Each staged block of the kernel, read at one entry, is an entry of one of the fifteen argument arrays.

  Before the kernel runs, the host lays the arguments out for it: x and h lose their leading axis of extent one and
  are narrowed to 16-bit floats (which changes no value over the extended reals), c only loses the leading axis, the
  eight weight matrices are narrowed, and each bias vector becomes a one-row matrix. None of this moves an entry: row
  r, column k of the flattened x is x[0, r, k], and the bias row's entry (0, q) is the vector's entry q.

  The grid has 8 x 8 points; point t owns the tile of 512 rows by 256 columns whose block indices are the output
  windows' index maps at t: row block R, column block C, both at most 7. At that point the kernel is given rows
  512 R .. of x and h at full width, the tile (R, C) of c, columns 256 C .. of every weight matrix at full
  height, and columns 256 C .. of every bias row. So an entry (p, k) of the x block is x[0, 512 R + p, k], an entry
  (k, q) of a weight block is w[k, 256 C + q], and so on. The relations between the printed index maps are decided
  once over the 64 points.
-/
import proofs.«144069_j33423435498395_1_alg».proof.Proof.Gen.KernelIdeal.Frame
import proofs.«144069_j33423435498395_1_alg».proof.Proof.LibMergeRows
import proofs.«144069_j33423435498395_1_alg».proof.Proof.LibLayout
import Idealize.ShloMosaic.Lib.ValueIdx
import Idealize.ShloMosaic.Lib.Pipeline.Value
import Idealize.ShloMosaic.Lib.StableHlo.Run

noncomputable section

namespace Cert.LstmCell.Reads

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## What the host hands the kernel -/

/-- The flattened, narrowed x. -/
theorem entry_v1 (c : Dev nD) :
    (V m c main_v1 : S4096x2048.Idx → EReal)
      = truncf (F := Ideal) .bf16 (shapeCast S4096x2048 (m ((c : Thread nD τ).loc main_arg0)) shapeCasts_S1x4096x2048_S4096x2048 : FVec Ideal S4096x2048 .f32) bitsLt_bf16_f32 := by
  show StableHlo.after hostOps0 (fun b => m (c, b)) (Proc.devRef .tc main_v1) = _
  after_results
  rfl

/-- The flattened, narrowed h. -/
theorem entry_v3 (c : Dev nD) :
    (V m c main_v3 : S4096x2048.Idx → EReal)
      = truncf (F := Ideal) .bf16 (shapeCast S4096x2048 (m ((c : Thread nD τ).loc main_arg1)) shapeCasts_S1x4096x2048_S4096x2048 : FVec Ideal S4096x2048 .f32) bitsLt_bf16_f32 := by
  show StableHlo.after hostOps0 (fun b => m (c, b)) (Proc.devRef .tc main_v3) = _
  after_results
  rfl

/-- The flattened c. -/
theorem entry_v4 (c : Dev nD) :
    (V m c main_v4 : S4096x2048.Idx → EReal)
      = shapeCast S4096x2048 (m ((c : Thread nD τ).loc main_arg2)) shapeCasts_S1x4096x2048_S4096x2048 := by
  show StableHlo.after hostOps0 (fun b => m (c, b)) (Proc.devRef .tc main_v4) = _
  after_results
  rfl

/-- The input gate's two weight matrices, narrowed. -/
theorem entry_v5 (c : Dev nD) :
    (V m c main_v5 : S2048x2048.Idx → EReal)
      = truncf (F := Ideal) .bf16 (m ((c : Thread nD τ).loc main_arg3) : FVec Ideal S2048x2048 .f32) bitsLt_bf16_f32 := by
  show StableHlo.after hostOps0 (fun b => m (c, b)) (Proc.devRef .tc main_v5) = _
  after_results

theorem entry_v6 (c : Dev nD) :
    (V m c main_v6 : S2048x2048.Idx → EReal)
      = truncf (F := Ideal) .bf16 (m ((c : Thread nD τ).loc main_arg4) : FVec Ideal S2048x2048 .f32) bitsLt_bf16_f32 := by
  show StableHlo.after hostOps0 (fun b => m (c, b)) (Proc.devRef .tc main_v6) = _
  after_results

/-- The forget gate's. -/
theorem entry_v7 (c : Dev nD) :
    (V m c main_v7 : S2048x2048.Idx → EReal)
      = truncf (F := Ideal) .bf16 (m ((c : Thread nD τ).loc main_arg5) : FVec Ideal S2048x2048 .f32) bitsLt_bf16_f32 := by
  show StableHlo.after hostOps0 (fun b => m (c, b)) (Proc.devRef .tc main_v7) = _
  after_results

theorem entry_v8 (c : Dev nD) :
    (V m c main_v8 : S2048x2048.Idx → EReal)
      = truncf (F := Ideal) .bf16 (m ((c : Thread nD τ).loc main_arg6) : FVec Ideal S2048x2048 .f32) bitsLt_bf16_f32 := by
  show StableHlo.after hostOps0 (fun b => m (c, b)) (Proc.devRef .tc main_v8) = _
  after_results

/-- The output gate's. -/
theorem entry_v9 (c : Dev nD) :
    (V m c main_v9 : S2048x2048.Idx → EReal)
      = truncf (F := Ideal) .bf16 (m ((c : Thread nD τ).loc main_arg7) : FVec Ideal S2048x2048 .f32) bitsLt_bf16_f32 := by
  show StableHlo.after hostOps0 (fun b => m (c, b)) (Proc.devRef .tc main_v9) = _
  after_results

theorem entry_v10 (c : Dev nD) :
    (V m c main_v10 : S2048x2048.Idx → EReal)
      = truncf (F := Ideal) .bf16 (m ((c : Thread nD τ).loc main_arg8) : FVec Ideal S2048x2048 .f32) bitsLt_bf16_f32 := by
  show StableHlo.after hostOps0 (fun b => m (c, b)) (Proc.devRef .tc main_v10) = _
  after_results

/-- The candidate's. -/
theorem entry_v11 (c : Dev nD) :
    (V m c main_v11 : S2048x2048.Idx → EReal)
      = truncf (F := Ideal) .bf16 (m ((c : Thread nD τ).loc main_arg9) : FVec Ideal S2048x2048 .f32) bitsLt_bf16_f32 := by
  show StableHlo.after hostOps0 (fun b => m (c, b)) (Proc.devRef .tc main_v11) = _
  after_results

theorem entry_v12 (c : Dev nD) :
    (V m c main_v12 : S2048x2048.Idx → EReal)
      = truncf (F := Ideal) .bf16 (m ((c : Thread nD τ).loc main_arg10) : FVec Ideal S2048x2048 .f32) bitsLt_bf16_f32 := by
  show StableHlo.after hostOps0 (fun b => m (c, b)) (Proc.devRef .tc main_v12) = _
  after_results

/-- The four bias vectors as one-row matrices: input, forget, output, candidate. -/
theorem entry_v13 (c : Dev nD) :
    (V m c main_v13 : S1x2048.Idx → EReal)
      = shapeCast S1x2048 (m ((c : Thread nD τ).loc main_arg11)) shapeCasts_S2048_S1x2048 := by
  show StableHlo.after hostOps0 (fun b => m (c, b)) (Proc.devRef .tc main_v13) = _
  after_results
  rfl

theorem entry_v14 (c : Dev nD) :
    (V m c main_v14 : S1x2048.Idx → EReal)
      = shapeCast S1x2048 (m ((c : Thread nD τ).loc main_arg12)) shapeCasts_S2048_S1x2048 := by
  show StableHlo.after hostOps0 (fun b => m (c, b)) (Proc.devRef .tc main_v14) = _
  after_results
  rfl

theorem entry_v15 (c : Dev nD) :
    (V m c main_v15 : S1x2048.Idx → EReal)
      = shapeCast S1x2048 (m ((c : Thread nD τ).loc main_arg13)) shapeCasts_S2048_S1x2048 := by
  show StableHlo.after hostOps0 (fun b => m (c, b)) (Proc.devRef .tc main_v15) = _
  after_results
  rfl

theorem entry_v16 (c : Dev nD) :
    (V m c main_v16 : S1x2048.Idx → EReal)
      = shapeCast S1x2048 (m ((c : Thread nD τ).loc main_arg14)) shapeCasts_S2048_S1x2048 := by
  show StableHlo.after hostOps0 (fun b => m (c, b)) (Proc.devRef .tc main_v16) = _
  after_results
  rfl

/-! ## The index maps over the grid -/

/-- The tile's block indices stay in range. -/
theorem idx_16 : ∀ t : Fin cfg0.N, win0_16.index t (0 : Fin 2) ≤ 7 ∧ win0_16.index t (1 : Fin 2) ≤ 7 :=
  (by decide +kernel : ∀ t : Fin grid0.N, _)

/-- Both results are written to the same tile. -/
theorem idx_15 : ∀ t : Fin cfg0.N, win0_15.index t (0 : Fin 2) = win0_16.index t (0 : Fin 2)
    ∧ win0_15.index t (1 : Fin 2) = win0_16.index t (1 : Fin 2) :=
  (by decide +kernel : ∀ t : Fin grid0.N, _)

/-- The rows of x and of h move with the tile's row block, at full width. -/
theorem idx_0 : ∀ t : Fin cfg0.N, win0_0.index t (0 : Fin 2) = win0_16.index t (0 : Fin 2) ∧ win0_0.index t (1 : Fin 2) = 0 :=
  (by decide +kernel : ∀ t : Fin grid0.N, _)
theorem idx_1 : ∀ t : Fin cfg0.N, win0_1.index t (0 : Fin 2) = win0_16.index t (0 : Fin 2) ∧ win0_1.index t (1 : Fin 2) = 0 :=
  (by decide +kernel : ∀ t : Fin grid0.N, _)

/-- The cell states' tile is the results' tile. -/
theorem idx_2 : ∀ t : Fin cfg0.N, win0_2.index t (0 : Fin 2) = win0_16.index t (0 : Fin 2)
    ∧ win0_2.index t (1 : Fin 2) = win0_16.index t (1 : Fin 2) :=
  (by decide +kernel : ∀ t : Fin grid0.N, _)

/-- The eight weight matrices' columns move with the tile's column block, at full height. -/
theorem idx_3 : ∀ t : Fin cfg0.N, win0_3.index t (0 : Fin 2) = 0 ∧ win0_3.index t (1 : Fin 2) = win0_16.index t (1 : Fin 2) :=
  (by decide +kernel : ∀ t : Fin grid0.N, _)
theorem idx_4 : ∀ t : Fin cfg0.N, win0_4.index t (0 : Fin 2) = 0 ∧ win0_4.index t (1 : Fin 2) = win0_16.index t (1 : Fin 2) :=
  (by decide +kernel : ∀ t : Fin grid0.N, _)
theorem idx_5 : ∀ t : Fin cfg0.N, win0_5.index t (0 : Fin 2) = 0 ∧ win0_5.index t (1 : Fin 2) = win0_16.index t (1 : Fin 2) :=
  (by decide +kernel : ∀ t : Fin grid0.N, _)
theorem idx_6 : ∀ t : Fin cfg0.N, win0_6.index t (0 : Fin 2) = 0 ∧ win0_6.index t (1 : Fin 2) = win0_16.index t (1 : Fin 2) :=
  (by decide +kernel : ∀ t : Fin grid0.N, _)
theorem idx_7 : ∀ t : Fin cfg0.N, win0_7.index t (0 : Fin 2) = 0 ∧ win0_7.index t (1 : Fin 2) = win0_16.index t (1 : Fin 2) :=
  (by decide +kernel : ∀ t : Fin grid0.N, _)
theorem idx_8 : ∀ t : Fin cfg0.N, win0_8.index t (0 : Fin 2) = 0 ∧ win0_8.index t (1 : Fin 2) = win0_16.index t (1 : Fin 2) :=
  (by decide +kernel : ∀ t : Fin grid0.N, _)
theorem idx_9 : ∀ t : Fin cfg0.N, win0_9.index t (0 : Fin 2) = 0 ∧ win0_9.index t (1 : Fin 2) = win0_16.index t (1 : Fin 2) :=
  (by decide +kernel : ∀ t : Fin grid0.N, _)
theorem idx_10 : ∀ t : Fin cfg0.N, win0_10.index t (0 : Fin 2) = 0 ∧ win0_10.index t (1 : Fin 2) = win0_16.index t (1 : Fin 2) :=
  (by decide +kernel : ∀ t : Fin grid0.N, _)

/-- So do the four bias rows' columns. -/
theorem idx_11 : ∀ t : Fin cfg0.N, win0_11.index t (0 : Fin 2) = 0 ∧ win0_11.index t (1 : Fin 2) = win0_16.index t (1 : Fin 2) :=
  (by decide +kernel : ∀ t : Fin grid0.N, _)
theorem idx_12 : ∀ t : Fin cfg0.N, win0_12.index t (0 : Fin 2) = 0 ∧ win0_12.index t (1 : Fin 2) = win0_16.index t (1 : Fin 2) :=
  (by decide +kernel : ∀ t : Fin grid0.N, _)
theorem idx_13 : ∀ t : Fin cfg0.N, win0_13.index t (0 : Fin 2) = 0 ∧ win0_13.index t (1 : Fin 2) = win0_16.index t (1 : Fin 2) :=
  (by decide +kernel : ∀ t : Fin grid0.N, _)
theorem idx_14 : ∀ t : Fin cfg0.N, win0_14.index t (0 : Fin 2) = 0 ∧ win0_14.index t (1 : Fin 2) = win0_16.index t (1 : Fin 2) :=
  (by decide +kernel : ∀ t : Fin grid0.N, _)

/-! ## The blocks at an entry -/

/-- An entry of the cell-state result's tile sits at the tile's place in the result. -/
theorem emb_16 (t : Fin cfg0.N) (p : Fin 512) (q : Fin 256) (P : Fin 4096) (Q : Fin 2048)
    (hP : P.val = win0_16.index t (0 : Fin 2) * 512 + p.val) (hQ : Q.val = win0_16.index t (1 : Fin 2) * 256 + q.val) :
    ((cfg0.win 16).blk t).view.emb (ix2 p q) = ix2 P Q := by
  funext a; apply Fin.ext
  match a with
  | ⟨0, _⟩ => show win0_16.index t (0 : Fin 2) * 512 + 1 * p.val = P.val; omega
  | ⟨1, _⟩ => show win0_16.index t (1 : Fin 2) * 256 + 1 * q.val = Q.val; omega

/-- And so does an entry of the hidden-state result's tile. -/
theorem emb_15 (t : Fin cfg0.N) (p : Fin 512) (q : Fin 256) (P : Fin 4096) (Q : Fin 2048)
    (hP : P.val = win0_16.index t (0 : Fin 2) * 512 + p.val) (hQ : Q.val = win0_16.index t (1 : Fin 2) * 256 + q.val) :
    ((cfg0.win 15).blk t).view.emb (ix2 p q) = ix2 P Q := by
  obtain ⟨e0, e1⟩ := idx_15 t
  funext a; apply Fin.ext
  match a with
  | ⟨0, _⟩ => show win0_15.index t (0 : Fin 2) * 512 + 1 * p.val = P.val; omega
  | ⟨1, _⟩ => show win0_15.index t (1 : Fin 2) * 256 + 1 * q.val = Q.val; omega

/-- The x block at (p, k): row 512 R + p of the argument, column k. -/
theorem read_0 (c : Dev nD) (t : Fin cfg0.N) (p : Fin 512) (k : Fin 2048) (P : Fin 4096)
    (hP : P.val = win0_16.index t (0 : Fin 2) * 512 + p.val) :
    iblk m c 0 t (ix2 p k) = m ((c : Thread nD τ).loc main_arg0) (ix3 (0 : Fin 1) P k) := by
  show V m c main_v1 (((cfg0.win 0).blk t).view.emb (ix2 p k)) = _
  have e : ((cfg0.win 0).blk t).view.emb (ix2 p k) = ix2 P k := by
    obtain ⟨e0, e1⟩ := idx_0 t
    funext a; apply Fin.ext
    match a with
    | ⟨0, _⟩ => show win0_0.index t (0 : Fin 2) * 512 + 1 * p.val = P.val; omega
    | ⟨1, _⟩ => show win0_0.index t (1 : Fin 2) * 2048 + 1 * k.val = k.val; omega
  rw [e, entry_v1]
  exact Cert.Lib.MergeRows.merge_apply _ shapeCasts_S1x4096x2048_S4096x2048 (0 : Fin 1) P k P (by simp)

/-- The h block at (p, k), likewise. -/
theorem read_1 (c : Dev nD) (t : Fin cfg0.N) (p : Fin 512) (k : Fin 2048) (P : Fin 4096)
    (hP : P.val = win0_16.index t (0 : Fin 2) * 512 + p.val) :
    iblk m c 1 t (ix2 p k) = m ((c : Thread nD τ).loc main_arg1) (ix3 (0 : Fin 1) P k) := by
  show V m c main_v3 (((cfg0.win 1).blk t).view.emb (ix2 p k)) = _
  have e : ((cfg0.win 1).blk t).view.emb (ix2 p k) = ix2 P k := by
    obtain ⟨e0, e1⟩ := idx_1 t
    funext a; apply Fin.ext
    match a with
    | ⟨0, _⟩ => show win0_1.index t (0 : Fin 2) * 512 + 1 * p.val = P.val; omega
    | ⟨1, _⟩ => show win0_1.index t (1 : Fin 2) * 2048 + 1 * k.val = k.val; omega
  rw [e, entry_v3]
  exact Cert.Lib.MergeRows.merge_apply _ shapeCasts_S1x4096x2048_S4096x2048 (0 : Fin 1) P k P (by simp)

/-- The cell states' block at (p, q): the argument at the tile's place. -/
theorem read_2 (c : Dev nD) (t : Fin cfg0.N) (p : Fin 512) (q : Fin 256) (P : Fin 4096) (Q : Fin 2048)
    (hP : P.val = win0_16.index t (0 : Fin 2) * 512 + p.val) (hQ : Q.val = win0_16.index t (1 : Fin 2) * 256 + q.val) :
    iblk m c 2 t (ix2 p q) = m ((c : Thread nD τ).loc main_arg2) (ix3 (0 : Fin 1) P Q) := by
  show V m c main_v4 (((cfg0.win 2).blk t).view.emb (ix2 p q)) = _
  have e : ((cfg0.win 2).blk t).view.emb (ix2 p q) = ix2 P Q := by
    obtain ⟨e0, e1⟩ := idx_2 t
    funext a; apply Fin.ext
    match a with
    | ⟨0, _⟩ => show win0_2.index t (0 : Fin 2) * 512 + 1 * p.val = P.val; omega
    | ⟨1, _⟩ => show win0_2.index t (1 : Fin 2) * 256 + 1 * q.val = Q.val; omega
  rw [e, entry_v4]
  exact Cert.Lib.MergeRows.merge_apply _ shapeCasts_S1x4096x2048_S4096x2048 (0 : Fin 1) P Q P (by simp)

/-- The input gate's input-weight block at (k, q): row k of the argument, column 256 C + q. The seven lemmas after it
    say the same of the other weight blocks. -/
theorem read_3 (c : Dev nD) (t : Fin cfg0.N) (k : Fin 2048) (q : Fin 256) (Q : Fin 2048)
    (hQ : Q.val = win0_16.index t (1 : Fin 2) * 256 + q.val) :
    iblk m c 3 t (ix2 k q) = m ((c : Thread nD τ).loc main_arg3) (ix2 k Q) := by
  show V m c main_v5 (((cfg0.win 3).blk t).view.emb (ix2 k q)) = _
  have e : ((cfg0.win 3).blk t).view.emb (ix2 k q) = ix2 k Q := by
    obtain ⟨e0, e1⟩ := idx_3 t
    funext a; apply Fin.ext
    match a with
    | ⟨0, _⟩ => show win0_3.index t (0 : Fin 2) * 2048 + 1 * k.val = k.val; omega
    | ⟨1, _⟩ => show win0_3.index t (1 : Fin 2) * 256 + 1 * q.val = Q.val; omega
  rw [e, entry_v5]
  rfl

theorem read_4 (c : Dev nD) (t : Fin cfg0.N) (k : Fin 2048) (q : Fin 256) (Q : Fin 2048)
    (hQ : Q.val = win0_16.index t (1 : Fin 2) * 256 + q.val) :
    iblk m c 4 t (ix2 k q) = m ((c : Thread nD τ).loc main_arg4) (ix2 k Q) := by
  show V m c main_v6 (((cfg0.win 4).blk t).view.emb (ix2 k q)) = _
  have e : ((cfg0.win 4).blk t).view.emb (ix2 k q) = ix2 k Q := by
    obtain ⟨e0, e1⟩ := idx_4 t
    funext a; apply Fin.ext
    match a with
    | ⟨0, _⟩ => show win0_4.index t (0 : Fin 2) * 2048 + 1 * k.val = k.val; omega
    | ⟨1, _⟩ => show win0_4.index t (1 : Fin 2) * 256 + 1 * q.val = Q.val; omega
  rw [e, entry_v6]
  rfl

theorem read_5 (c : Dev nD) (t : Fin cfg0.N) (k : Fin 2048) (q : Fin 256) (Q : Fin 2048)
    (hQ : Q.val = win0_16.index t (1 : Fin 2) * 256 + q.val) :
    iblk m c 5 t (ix2 k q) = m ((c : Thread nD τ).loc main_arg5) (ix2 k Q) := by
  show V m c main_v7 (((cfg0.win 5).blk t).view.emb (ix2 k q)) = _
  have e : ((cfg0.win 5).blk t).view.emb (ix2 k q) = ix2 k Q := by
    obtain ⟨e0, e1⟩ := idx_5 t
    funext a; apply Fin.ext
    match a with
    | ⟨0, _⟩ => show win0_5.index t (0 : Fin 2) * 2048 + 1 * k.val = k.val; omega
    | ⟨1, _⟩ => show win0_5.index t (1 : Fin 2) * 256 + 1 * q.val = Q.val; omega
  rw [e, entry_v7]
  rfl

theorem read_6 (c : Dev nD) (t : Fin cfg0.N) (k : Fin 2048) (q : Fin 256) (Q : Fin 2048)
    (hQ : Q.val = win0_16.index t (1 : Fin 2) * 256 + q.val) :
    iblk m c 6 t (ix2 k q) = m ((c : Thread nD τ).loc main_arg6) (ix2 k Q) := by
  show V m c main_v8 (((cfg0.win 6).blk t).view.emb (ix2 k q)) = _
  have e : ((cfg0.win 6).blk t).view.emb (ix2 k q) = ix2 k Q := by
    obtain ⟨e0, e1⟩ := idx_6 t
    funext a; apply Fin.ext
    match a with
    | ⟨0, _⟩ => show win0_6.index t (0 : Fin 2) * 2048 + 1 * k.val = k.val; omega
    | ⟨1, _⟩ => show win0_6.index t (1 : Fin 2) * 256 + 1 * q.val = Q.val; omega
  rw [e, entry_v8]
  rfl

theorem read_7 (c : Dev nD) (t : Fin cfg0.N) (k : Fin 2048) (q : Fin 256) (Q : Fin 2048)
    (hQ : Q.val = win0_16.index t (1 : Fin 2) * 256 + q.val) :
    iblk m c 7 t (ix2 k q) = m ((c : Thread nD τ).loc main_arg7) (ix2 k Q) := by
  show V m c main_v9 (((cfg0.win 7).blk t).view.emb (ix2 k q)) = _
  have e : ((cfg0.win 7).blk t).view.emb (ix2 k q) = ix2 k Q := by
    obtain ⟨e0, e1⟩ := idx_7 t
    funext a; apply Fin.ext
    match a with
    | ⟨0, _⟩ => show win0_7.index t (0 : Fin 2) * 2048 + 1 * k.val = k.val; omega
    | ⟨1, _⟩ => show win0_7.index t (1 : Fin 2) * 256 + 1 * q.val = Q.val; omega
  rw [e, entry_v9]
  rfl

theorem read_8 (c : Dev nD) (t : Fin cfg0.N) (k : Fin 2048) (q : Fin 256) (Q : Fin 2048)
    (hQ : Q.val = win0_16.index t (1 : Fin 2) * 256 + q.val) :
    iblk m c 8 t (ix2 k q) = m ((c : Thread nD τ).loc main_arg8) (ix2 k Q) := by
  show V m c main_v10 (((cfg0.win 8).blk t).view.emb (ix2 k q)) = _
  have e : ((cfg0.win 8).blk t).view.emb (ix2 k q) = ix2 k Q := by
    obtain ⟨e0, e1⟩ := idx_8 t
    funext a; apply Fin.ext
    match a with
    | ⟨0, _⟩ => show win0_8.index t (0 : Fin 2) * 2048 + 1 * k.val = k.val; omega
    | ⟨1, _⟩ => show win0_8.index t (1 : Fin 2) * 256 + 1 * q.val = Q.val; omega
  rw [e, entry_v10]
  rfl

theorem read_9 (c : Dev nD) (t : Fin cfg0.N) (k : Fin 2048) (q : Fin 256) (Q : Fin 2048)
    (hQ : Q.val = win0_16.index t (1 : Fin 2) * 256 + q.val) :
    iblk m c 9 t (ix2 k q) = m ((c : Thread nD τ).loc main_arg9) (ix2 k Q) := by
  show V m c main_v11 (((cfg0.win 9).blk t).view.emb (ix2 k q)) = _
  have e : ((cfg0.win 9).blk t).view.emb (ix2 k q) = ix2 k Q := by
    obtain ⟨e0, e1⟩ := idx_9 t
    funext a; apply Fin.ext
    match a with
    | ⟨0, _⟩ => show win0_9.index t (0 : Fin 2) * 2048 + 1 * k.val = k.val; omega
    | ⟨1, _⟩ => show win0_9.index t (1 : Fin 2) * 256 + 1 * q.val = Q.val; omega
  rw [e, entry_v11]
  rfl

theorem read_10 (c : Dev nD) (t : Fin cfg0.N) (k : Fin 2048) (q : Fin 256) (Q : Fin 2048)
    (hQ : Q.val = win0_16.index t (1 : Fin 2) * 256 + q.val) :
    iblk m c 10 t (ix2 k q) = m ((c : Thread nD τ).loc main_arg10) (ix2 k Q) := by
  show V m c main_v12 (((cfg0.win 10).blk t).view.emb (ix2 k q)) = _
  have e : ((cfg0.win 10).blk t).view.emb (ix2 k q) = ix2 k Q := by
    obtain ⟨e0, e1⟩ := idx_10 t
    funext a; apply Fin.ext
    match a with
    | ⟨0, _⟩ => show win0_10.index t (0 : Fin 2) * 2048 + 1 * k.val = k.val; omega
    | ⟨1, _⟩ => show win0_10.index t (1 : Fin 2) * 256 + 1 * q.val = Q.val; omega
  rw [e, entry_v12]
  rfl

/-- The input gate's bias block at (0, q): the argument's entry 256 C + q. The three lemmas after it say the same of
    the other bias blocks. -/
theorem read_11 (c : Dev nD) (t : Fin cfg0.N) (z : Fin 1) (q : Fin 256) (Q : Fin 2048)
    (hQ : Q.val = win0_16.index t (1 : Fin 2) * 256 + q.val) :
    iblk m c 11 t (ix2 z q) = m ((c : Thread nD τ).loc main_arg11) (ix1 Q) := by
  show V m c main_v13 (((cfg0.win 11).blk t).view.emb (ix2 z q)) = _
  have e : ((cfg0.win 11).blk t).view.emb (ix2 z q) = ix2 (0 : Fin 1) Q := by
    obtain ⟨e0, e1⟩ := idx_11 t
    funext a; apply Fin.ext
    match a with
    | ⟨0, _⟩ => show win0_11.index t (0 : Fin 2) * 1 + 1 * z.val = 0; have := z.isLt; omega
    | ⟨1, _⟩ => show win0_11.index t (1 : Fin 2) * 256 + 1 * q.val = Q.val; omega
  rw [e, entry_v13]
  exact Cert.Lib.Layout.rowCast_apply _ shapeCasts_S2048_S1x2048 (0 : Fin 1) Q

theorem read_12 (c : Dev nD) (t : Fin cfg0.N) (z : Fin 1) (q : Fin 256) (Q : Fin 2048)
    (hQ : Q.val = win0_16.index t (1 : Fin 2) * 256 + q.val) :
    iblk m c 12 t (ix2 z q) = m ((c : Thread nD τ).loc main_arg12) (ix1 Q) := by
  show V m c main_v14 (((cfg0.win 12).blk t).view.emb (ix2 z q)) = _
  have e : ((cfg0.win 12).blk t).view.emb (ix2 z q) = ix2 (0 : Fin 1) Q := by
    obtain ⟨e0, e1⟩ := idx_12 t
    funext a; apply Fin.ext
    match a with
    | ⟨0, _⟩ => show win0_12.index t (0 : Fin 2) * 1 + 1 * z.val = 0; have := z.isLt; omega
    | ⟨1, _⟩ => show win0_12.index t (1 : Fin 2) * 256 + 1 * q.val = Q.val; omega
  rw [e, entry_v14]
  exact Cert.Lib.Layout.rowCast_apply _ shapeCasts_S2048_S1x2048 (0 : Fin 1) Q

theorem read_13 (c : Dev nD) (t : Fin cfg0.N) (z : Fin 1) (q : Fin 256) (Q : Fin 2048)
    (hQ : Q.val = win0_16.index t (1 : Fin 2) * 256 + q.val) :
    iblk m c 13 t (ix2 z q) = m ((c : Thread nD τ).loc main_arg13) (ix1 Q) := by
  show V m c main_v15 (((cfg0.win 13).blk t).view.emb (ix2 z q)) = _
  have e : ((cfg0.win 13).blk t).view.emb (ix2 z q) = ix2 (0 : Fin 1) Q := by
    obtain ⟨e0, e1⟩ := idx_13 t
    funext a; apply Fin.ext
    match a with
    | ⟨0, _⟩ => show win0_13.index t (0 : Fin 2) * 1 + 1 * z.val = 0; have := z.isLt; omega
    | ⟨1, _⟩ => show win0_13.index t (1 : Fin 2) * 256 + 1 * q.val = Q.val; omega
  rw [e, entry_v15]
  exact Cert.Lib.Layout.rowCast_apply _ shapeCasts_S2048_S1x2048 (0 : Fin 1) Q

theorem read_14 (c : Dev nD) (t : Fin cfg0.N) (z : Fin 1) (q : Fin 256) (Q : Fin 2048)
    (hQ : Q.val = win0_16.index t (1 : Fin 2) * 256 + q.val) :
    iblk m c 14 t (ix2 z q) = m ((c : Thread nD τ).loc main_arg14) (ix1 Q) := by
  show V m c main_v16 (((cfg0.win 14).blk t).view.emb (ix2 z q)) = _
  have e : ((cfg0.win 14).blk t).view.emb (ix2 z q) = ix2 (0 : Fin 1) Q := by
    obtain ⟨e0, e1⟩ := idx_14 t
    funext a; apply Fin.ext
    match a with
    | ⟨0, _⟩ => show win0_14.index t (0 : Fin 2) * 1 + 1 * z.val = 0; have := z.isLt; omega
    | ⟨1, _⟩ => show win0_14.index t (1 : Fin 2) * 256 + 1 * q.val = Q.val; omega
  rw [e, entry_v16]
  exact Cert.Lib.Layout.rowCast_apply _ shapeCasts_S2048_S1x2048 (0 : Fin 1) Q

end Cert.LstmCell.Reads

end
-- ==== Proof.KernelValue.lean ====
/-
  From tiles to whole arrays: what the kernel's program leaves in its two results.

  At grid point t the body leaves, in the two output staging buffers, the tile (R, C) of the new hidden state and of
  the new cell state: entry (p, q) of the tile is the LSTM step's value at row 512 R + p, column 256 C + q, because
  every block entry the body reads is the argument arrays' entry at that place. The 64 tiles cover the 4096 x 2048
  result exactly (row r lies in row block r / 512, column s in column block s / 256, and every pair of block indices is
  some point's), so after the run each result array is the step's value everywhere. The two reshapes after the region
  only put a leading axis of extent one in front, which moves no entry.
-/
import proofs.«144069_j33423435498395_1_alg».proof.Proof.Gen.KernelIdeal.Frame
import proofs.«144069_j33423435498395_1_alg».proof.Proof.CellSpec
import proofs.«144069_j33423435498395_1_alg».proof.Proof.KernelBlock
import proofs.«144069_j33423435498395_1_alg».proof.Proof.KernelReads
import proofs.«144069_j33423435498395_1_alg».proof.Proof.LibMergeRows
import Idealize.ShloMosaic.Lib.ValueIdx
import Idealize.ShloMosaic.Lib.Pipeline.Value
import Idealize.ShloMosaic.Lib.StableHlo.Run

noncomputable section

namespace Cert.LstmCell.KernelValue

open Cert.KernelIdeal Cert.KernelIdeal.Gen Idealize.ShloMosaic Idealize.ShloMosaic.TcCoe Idealize.ShloMosaic.ValueIdx Idealize.SL.Sem
open Idealize.ShloMosaic.Pipeline (Dat)
open Cert.LstmCell

variable (m : (ℓ : Loc nD τ sig) → Buf (Elt Ideal) ℓ) (ρ : Dev nD → PrngReg)

/-! ## The step's results of core c's arguments as launched -/

/-- The new hidden state of the fifteen arguments as launched. -/
def hidOf (c : Dev nD) : Act :=
  hid (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-- The new cell state of the fifteen arguments as launched. -/
def cellOf (c : Dev nD) : Act :=
  cell (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-- The same without the leading axis: what the kernel's result arrays hold. -/
def hidMat (c : Dev nD) : S4096x2048.Idx → EReal := fun j => hidOf m c (ix3 (0 : Fin 1) (j 0) (j 1))
def cellMat (c : Dev nD) : S4096x2048.Idx → EReal := fun j => cellOf m c (ix3 (0 : Fin 1) (j 0) (j 1))

/-! ## The four gates' pre-activations in a tile are the arguments' at the tile's place -/

section Tile
variable (c : Dev nD) (t : Fin cfg0.N) (p : Fin 512) (q : Fin 256) (P : Fin 4096) (Q : Fin 2048)
  (hP : P.val = win0_16.index t (0 : Fin 2) * 512 + p.val) (hQ : Q.val = win0_16.index t (1 : Fin 2) * 256 + q.val)
include hP hQ

theorem gate_input :
    Block.blkPre (iblk m c 0 t) (iblk m c 1 t) (iblk m c 3 t) (iblk m c 4 t) (iblk m c 11 t) p q
      = pre (m ((c : Thread nD τ).loc main_arg0)) (m ((c : Thread nD τ).loc main_arg1)) (m ((c : Thread nD τ).loc main_arg3))
          (m ((c : Thread nD τ).loc main_arg4)) (m ((c : Thread nD τ).loc main_arg11)) P Q :=
  Block.blkPre_eq_pre (iblk m c 0 t) (iblk m c 1 t) (iblk m c 3 t) (iblk m c 4 t) (iblk m c 11 t)
    (m ((c : Thread nD τ).loc main_arg0)) (m ((c : Thread nD τ).loc main_arg1)) (m ((c : Thread nD τ).loc main_arg3))
    (m ((c : Thread nD τ).loc main_arg4)) (m ((c : Thread nD τ).loc main_arg11)) p q P Q
    (fun k => Reads.read_0 m c t p k P hP) (fun k => Reads.read_1 m c t p k P hP)
    (fun k => Reads.read_3 m c t k q Q hQ) (fun k => Reads.read_4 m c t k q Q hQ) (Reads.read_11 m c t 0 q Q hQ)

theorem gate_forget :
    Block.blkPre (iblk m c 0 t) (iblk m c 1 t) (iblk m c 5 t) (iblk m c 6 t) (iblk m c 12 t) p q
      = pre (m ((c : Thread nD τ).loc main_arg0)) (m ((c : Thread nD τ).loc main_arg1)) (m ((c : Thread nD τ).loc main_arg5))
          (m ((c : Thread nD τ).loc main_arg6)) (m ((c : Thread nD τ).loc main_arg12)) P Q :=
  Block.blkPre_eq_pre (iblk m c 0 t) (iblk m c 1 t) (iblk m c 5 t) (iblk m c 6 t) (iblk m c 12 t)
    (m ((c : Thread nD τ).loc main_arg0)) (m ((c : Thread nD τ).loc main_arg1)) (m ((c : Thread nD τ).loc main_arg5))
    (m ((c : Thread nD τ).loc main_arg6)) (m ((c : Thread nD τ).loc main_arg12)) p q P Q
    (fun k => Reads.read_0 m c t p k P hP) (fun k => Reads.read_1 m c t p k P hP)
    (fun k => Reads.read_5 m c t k q Q hQ) (fun k => Reads.read_6 m c t k q Q hQ) (Reads.read_12 m c t 0 q Q hQ)

theorem gate_output :
    Block.blkPre (iblk m c 0 t) (iblk m c 1 t) (iblk m c 7 t) (iblk m c 8 t) (iblk m c 13 t) p q
      = pre (m ((c : Thread nD τ).loc main_arg0)) (m ((c : Thread nD τ).loc main_arg1)) (m ((c : Thread nD τ).loc main_arg7))
          (m ((c : Thread nD τ).loc main_arg8)) (m ((c : Thread nD τ).loc main_arg13)) P Q :=
  Block.blkPre_eq_pre (iblk m c 0 t) (iblk m c 1 t) (iblk m c 7 t) (iblk m c 8 t) (iblk m c 13 t)
    (m ((c : Thread nD τ).loc main_arg0)) (m ((c : Thread nD τ).loc main_arg1)) (m ((c : Thread nD τ).loc main_arg7))
    (m ((c : Thread nD τ).loc main_arg8)) (m ((c : Thread nD τ).loc main_arg13)) p q P Q
    (fun k => Reads.read_0 m c t p k P hP) (fun k => Reads.read_1 m c t p k P hP)
    (fun k => Reads.read_7 m c t k q Q hQ) (fun k => Reads.read_8 m c t k q Q hQ) (Reads.read_13 m c t 0 q Q hQ)

theorem gate_cand :
    Block.blkPre (iblk m c 0 t) (iblk m c 1 t) (iblk m c 9 t) (iblk m c 10 t) (iblk m c 14 t) p q
      = pre (m ((c : Thread nD τ).loc main_arg0)) (m ((c : Thread nD τ).loc main_arg1)) (m ((c : Thread nD τ).loc main_arg9))
          (m ((c : Thread nD τ).loc main_arg10)) (m ((c : Thread nD τ).loc main_arg14)) P Q :=
  Block.blkPre_eq_pre (iblk m c 0 t) (iblk m c 1 t) (iblk m c 9 t) (iblk m c 10 t) (iblk m c 14 t)
    (m ((c : Thread nD τ).loc main_arg0)) (m ((c : Thread nD τ).loc main_arg1)) (m ((c : Thread nD τ).loc main_arg9))
    (m ((c : Thread nD τ).loc main_arg10)) (m ((c : Thread nD τ).loc main_arg14)) p q P Q
    (fun k => Reads.read_0 m c t p k P hP) (fun k => Reads.read_1 m c t p k P hP)
    (fun k => Reads.read_9 m c t k q Q hQ) (fun k => Reads.read_10 m c t k q Q hQ) (Reads.read_14 m c t 0 q Q hQ)

/-- The cell-state tile the body leaves at point t, at (p, q), is the step's new cell state at (P, Q). -/
theorem cellTile_at :
    out0_16 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
        (iblk m c 14 t) (ix2 p q)
      = cellMat m c (ix2 P Q) := by
  refine (Block.cellTile_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) p q).trans ?_
  rw [gate_input m c t p q P Q hP hQ, gate_forget m c t p q P Q hP hQ, gate_cand m c t p q P Q hP hQ,
    Reads.read_2 m c t p q P Q hP hQ]
  rfl

/-- The hidden-state tile the body leaves at point t, at (p, q), is the step's new hidden state at (P, Q). -/
theorem hidTile_at :
    out0_15 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
        (iblk m c 14 t) (ix2 p q)
      = hidMat m c (ix2 P Q) := by
  refine (Block.hidTile_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) p q).trans ?_
  rw [gate_input m c t p q P Q hP hQ, gate_forget m c t p q P Q hP hQ, gate_output m c t p q P Q hP hQ,
    gate_cand m c t p q P Q hP hQ, Reads.read_2 m c t p q P Q hP hQ]
  rfl

end Tile

/-! ## What each point writes back -/

/-- Point t writes back tile t of the new cell state. -/
theorem flushed16_eq (c : Dev nD) (t : Fin cfg0.N) :
    (dats m 0 c).flushed 16 t = ((cfg0.win 16).blk t).view.read (Elt Ideal) (cellMat m c) := by
  show (cfg0.win 16).cut (grid0.coords t) ((dats m 0 c).after 16 t) = _
  rw [after0_16]
  funext y
  obtain ⟨p, q, rfl⟩ : ∃ (p : Fin 512) (q : Fin 256), y = ix2 p q := ⟨y 0, y 1, eq_ix2 y⟩
  obtain ⟨hR, hC⟩ := Reads.idx_16 t
  have hp : p.val < 512 := p.isLt
  have hq : q.val < 256 := q.isLt
  obtain ⟨P, hP⟩ : ∃ P : Fin 4096, P.val = win0_16.index t (0 : Fin 2) * 512 + p.val := ⟨⟨_, by omega⟩, rfl⟩
  obtain ⟨Q, hQ⟩ : ∃ Q : Fin 2048, Q.val = win0_16.index t (1 : Fin 2) * 256 + q.val := ⟨⟨_, by omega⟩, rfl⟩
  show _ = cellMat m c (((cfg0.win 16).blk t).view.emb (ix2 p q))
  rw [Reads.emb_16 t p q P Q hP hQ]
  exact cellTile_at m c t p q P Q hP hQ

/-- Point t writes back tile t of the new hidden state. -/
theorem flushed15_eq (c : Dev nD) (t : Fin cfg0.N) :
    (dats m 0 c).flushed 15 t = ((cfg0.win 15).blk t).view.read (Elt Ideal) (hidMat m c) := by
  show (cfg0.win 15).cut (grid0.coords t) ((dats m 0 c).after 15 t) = _
  rw [after0_15]
  funext y
  obtain ⟨p, q, rfl⟩ : ∃ (p : Fin 512) (q : Fin 256), y = ix2 p q := ⟨y 0, y 1, eq_ix2 y⟩
  obtain ⟨hR, hC⟩ := Reads.idx_16 t
  have hp : p.val < 512 := p.isLt
  have hq : q.val < 256 := q.isLt
  obtain ⟨P, hP⟩ : ∃ P : Fin 4096, P.val = win0_16.index t (0 : Fin 2) * 512 + p.val := ⟨⟨_, by omega⟩, rfl⟩
  obtain ⟨Q, hQ⟩ : ∃ Q : Fin 2048, Q.val = win0_16.index t (1 : Fin 2) * 256 + q.val := ⟨⟨_, by omega⟩, rfl⟩
  show _ = hidMat m c (((cfg0.win 15).blk t).view.emb (ix2 p q))
  rw [Reads.emb_15 t p q P Q hP hQ]
  exact hidTile_at m c t p q P Q hP hQ

/-! ## The tiles cover the results -/

/-- Every pair of block indices is some point's, for both result windows. -/
theorem onto16 : ∀ (r : Fin 8) (s : Fin 8), ∃ t : Fin cfg0.N, win0_16.index t = ![r.val, s.val] :=
  (by decide +kernel : ∀ (r : Fin 8) (s : Fin 8), ∃ t : Fin grid0.N, win0_16.index t = ![r.val, s.val])
theorem onto15 : ∀ (r : Fin 8) (s : Fin 8), ∃ t : Fin cfg0.N, win0_15.index t = ![r.val, s.val] :=
  (by decide +kernel : ∀ (r : Fin 8) (s : Fin 8), ∃ t : Fin grid0.N, win0_15.index t = ![r.val, s.val])

/-- An index is in point t's tile iff each coordinate is in the tile's range on its axis. -/
theorem mem_blk16 (t : Fin cfg0.N) (i : S4096x2048.Idx) :
    i ∈ ((cfg0.win 16).blk t).view.set ↔ ∀ a : Fin 2, win0_16.index t a * S512x256.size a ≤ (i a).val
      ∧ (i a).val < win0_16.index t a * S512x256.size a + S512x256.size a := by
  show i ∈ ((View.whole main_v17_1).slice (win0_16.rect t)).set ↔ _
  rw [View.set_slice_whole, Rect.mem_set_unit]
  exact Iff.rfl
theorem mem_blk15 (t : Fin cfg0.N) (i : S4096x2048.Idx) :
    i ∈ ((cfg0.win 15).blk t).view.set ↔ ∀ a : Fin 2, win0_15.index t a * S512x256.size a ≤ (i a).val
      ∧ (i a).val < win0_15.index t a * S512x256.size a + S512x256.size a := by
  show i ∈ ((View.whole main_v17_0).slice (win0_15.rect t)).set ↔ _
  rw [View.set_slice_whole, Rect.mem_set_unit]
  exact Iff.rfl

/-- Row r is in row block r / 512 and column s in column block s / 256: every index is in some point's tile. -/
theorem cover16 (i : S4096x2048.Idx) :
    ∃ t : Fin cfg0.N, (cfg0.win 16).flush t = true ∧ i ∈ ((cfg0.win 16).blk t).view.set := by
  have h0 : (i 0).val < 4096 := (i 0).isLt
  have h1 : (i 1).val < 2048 := (i 1).isLt
  obtain ⟨t, ht⟩ := onto16 ⟨(i 0).val / 512, by omega⟩ ⟨(i 1).val / 256, by omega⟩
  have q0 : win0_16.index t (0 : Fin 2) = (i 0).val / 512 := congrFun ht 0
  have q1 : win0_16.index t (1 : Fin 2) = (i 1).val / 256 := congrFun ht 1
  refine ⟨t, flush0_16 t, ?_⟩
  rw [mem_blk16]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 256 ≤ (i 1).val ∧ (i 1).val < win0_16.index t (1 : Fin 2) * 256 + 256; omega
theorem cover15 (i : S4096x2048.Idx) :
    ∃ t : Fin cfg0.N, (cfg0.win 15).flush t = true ∧ i ∈ ((cfg0.win 15).blk t).view.set := by
  have h0 : (i 0).val < 4096 := (i 0).isLt
  have h1 : (i 1).val < 2048 := (i 1).isLt
  obtain ⟨t, ht⟩ := onto15 ⟨(i 0).val / 512, by omega⟩ ⟨(i 1).val / 256, by omega⟩
  have q0 : win0_15.index t (0 : Fin 2) = (i 0).val / 512 := congrFun ht 0
  have q1 : win0_15.index t (1 : Fin 2) = (i 1).val / 256 := congrFun ht 1
  refine ⟨t, flush0_15 t, ?_⟩
  rw [mem_blk15]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 256 ≤ (i 1).val ∧ (i 1).val < win0_15.index t (1 : Fin 2) * 256 + 256; omega

/-- After the run the two result arrays hold the step's values everywhere. -/
theorem final16 (c : Dev nD) : (dats m 0 c).arrAt 16 cfg0.N = cellMat m c :=
  (dats m 0 c).arrAt_eq_of_cover 16 (cellMat m c) (fun t _ => flushed16_eq m c t) cover16
theorem final15 (c : Dev nD) : (dats m 0 c).arrAt 15 cfg0.N = hidMat m c :=
  (dats m 0 c).arrAt_eq_of_cover 15 (hidMat m c) (fun t _ => flushed15_eq m c t) cover15

/-! ## The reshapes after the region -/

/-- The first result: the hidden-state array with a leading axis of extent one put in front. -/
theorem tail18 (c : Dev nD) :
    Pipeline.afterTail₀ cfgs (dats m) 0 (V0 m) [hostOps1] c main_v18 = hidOf m c := by
  unfold Pipeline.afterTail₀
  show StableHlo.after hostOps1 _ (Proc.devRef .tc main_v18) = _
  after_results
  have e : Pipeline.withArrays spec0 c (V0 m c) (fun w => (dats m 0 c).arrAt w cfg0.N) (Proc.devRef .tc main_v17_0) = hidMat m c :=
    (Pipeline.withArrays_arr spec0 launch0.win.arr_inj c (V0 m c) (fun w => (dats m 0 c).arrAt w cfg0.N) 15).trans (final15 m c)
  funext i
  obtain ⟨a, p, q, rfl⟩ : ∃ (a : Fin 1) (p : Fin 4096) (q : Fin 2048), i = ix3 a p q := ⟨i 0, i 1, i 2, eq_ix3 i⟩
  show shapeCast S1x4096x2048 (Pipeline.withArrays spec0 c (V0 m c) (fun w => (dats m 0 c).arrAt w cfg0.N) (Proc.devRef .tc main_v17_0))
    shapeCasts_S4096x2048_S1x4096x2048 (ix3 a p q) = _
  rw [e]
  obtain rfl : a = 0 := Subsingleton.elim _ _
  exact Cert.Lib.MergeRows.split_apply (hidMat m c) shapeCasts_S4096x2048_S1x4096x2048 (0 : Fin 1) p q p (by simp)

/-- The second result: the cell-state array with a leading axis of extent one put in front. -/
theorem tail19 (c : Dev nD) :
    Pipeline.afterTail₀ cfgs (dats m) 0 (V0 m) [hostOps1] c main_v19 = cellOf m c := by
  unfold Pipeline.afterTail₀
  show StableHlo.after hostOps1 _ (Proc.devRef .tc main_v19) = _
  after_results
  have e : Pipeline.withArrays spec0 c (V0 m c) (fun w => (dats m 0 c).arrAt w cfg0.N) (Proc.devRef .tc main_v17_1) = cellMat m c :=
    (Pipeline.withArrays_arr spec0 launch0.win.arr_inj c (V0 m c) (fun w => (dats m 0 c).arrAt w cfg0.N) 16).trans (final16 m c)
  funext i
  obtain ⟨a, p, q, rfl⟩ : ∃ (a : Fin 1) (p : Fin 4096) (q : Fin 2048), i = ix3 a p q := ⟨i 0, i 1, i 2, eq_ix3 i⟩
  show shapeCast S1x4096x2048 (Pipeline.withArrays spec0 c (V0 m c) (fun w => (dats m 0 c).arrAt w cfg0.N) (Proc.devRef .tc main_v17_1))
    shapeCasts_S4096x2048_S1x4096x2048 (ix3 a p q) = _
  rw [e]
  obtain rfl : a = 0 := Subsingleton.elim _ _
  exact Cert.Lib.MergeRows.split_apply (cellMat m c) shapeCasts_S4096x2048_S1x4096x2048 (0 : Fin 1) p q p (by simp)

/-! ## The run -/

/-- Every weakly fair execution of the kernel's program over the extended reals terminates with the two results at the
    LSTM step's new hidden state and new cell state of the arguments as launched, and the arguments unchanged. -/
theorem run : θ_run defs (onTc (τ := τ) (main (F := Ideal))) ⟨m, fun _ => 0, ρ⟩ (fun r => ∀ c : Dev nD,
      r.2.mem ((c.tc : Thread nD τ).loc main_v18) = hidOf m c
      ∧ r.2.mem ((c.tc : Thread nD τ).loc main_v19) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨((h c).2 main_v18 (Pipeline.mem_restRefs_of main_v18 (by decide) (by decide))).trans (tail18 m c),
     ((h c).2 main_v19 (Pipeline.mem_restRefs_of main_v19 (by decide) (by decide))).trans (tail19 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c),
     ((h c).2 main_arg8 (Pipeline.mem_restRefs_of main_arg8 (by decide) (by decide))).trans (W_main_arg8 m (dats m) c),
     ((h c).2 main_arg9 (Pipeline.mem_restRefs_of main_arg9 (by decide) (by decide))).trans (W_main_arg9 m (dats m) c),
     ((h c).2 main_arg10 (Pipeline.mem_restRefs_of main_arg10 (by decide) (by decide))).trans (W_main_arg10 m (dats m) c),
     ((h c).2 main_arg11 (Pipeline.mem_restRefs_of main_arg11 (by decide) (by decide))).trans (W_main_arg11 m (dats m) c),
     ((h c).2 main_arg12 (Pipeline.mem_restRefs_of main_arg12 (by decide) (by decide))).trans (W_main_arg12 m (dats m) c),
     ((h c).2 main_arg13 (Pipeline.mem_restRefs_of main_arg13 (by decide) (by decide))).trans (W_main_arg13 m (dats m) c),
     ((h c).2 main_arg14 (Pipeline.mem_restRefs_of main_arg14 (by decide) (by decide))).trans (W_main_arg14 m (dats m) c)⟩)
    (run_main m ρ)

end Cert.LstmCell.KernelValue

end
-- ==== Proof.RefSide.lean ====
/-
  The reference program of one LSTM step, read entry by entry.

  The reference lays the four gates' input weight matrices side by side into one [2048, 8192] matrix (input, forget,
  output, candidate, in that order), does the same with the four hidden weight matrices, and lays the four biases end to
  end into one vector of length 8192. Two matrix products and the bias then give all four gates' pre-activations at
  once, as one [4096, 8192] array: gate g occupies columns 2048 g .. 2048 g + 2047. Reading a joined array at column
  2048 g + q gives piece g at column q, so gate g's block of that array is, entry by entry,
      (sum over k of x[p,k] * wx_g[k,q]) + (sum over k of h[p,k] * wh_g[k,q]) + b_g[q],
  the specification's pre-activation with the same grouping of the three summands. The logistic function is spelt
  1 / (1 + e^(-t)) with the float literal 1, which over the extended reals is the logistic function itself. The rest
  is pointwise: c' = c * sigma(forget) + sigma(input) * tanh(candidate), h' = sigma(output) * tanh(c'), and a leading
  axis of extent one put back in front.
-/
import proofs.«144069_j33423435498395_1_alg».proof.Proof.Gen.ReferenceIdeal.Read
import proofs.«144069_j33423435498395_1_alg».proof.Proof.CellSpec
import Idealize.ShloMosaic.Lib.Pipeline.Value
import Idealize.ShloMosaic.Lib.ValueIdx
import Idealize.ShloMosaic.Lib.IdealHost
import Idealize.ShloMosaic.PureOps.Ideal

noncomputable section

open scoped BigOperators

namespace Cert.LstmCell.RefSide

open Cert.ReferenceIdeal Idealize.ShloMosaic Idealize.ShloMosaic.ValueIdx

/-! ## A joined array read at an index -/

section Pieces
variable {α : Type}

/-- Piece 0 of four [2048, 2048] matrices laid side by side: the joined matrix at row `k`, column `q`
    is matrix 0 at `(k, q)`. -/
theorem cat2_piece0 (w0 w1 w2 w3 : S2048x2048.Idx → α)
    (h : Shape.Concatenates [S2048x2048, S2048x2048, S2048x2048, S2048x2048] S2048x8192 1)
    (j : S2048x8192.Idx) (k q : Fin 2048) (h0 : (j 0).val = k.val) (h1 : (j 1).val = q.val) :
    concatenate S2048x8192 1 [⟨S2048x2048, w0⟩, ⟨S2048x2048, w1⟩, ⟨S2048x2048, w2⟩, ⟨S2048x2048, w3⟩] h j = w0 (ix2 k q) :=
  concatenate_apply_piece (t := S2048x8192) 1 [⟨S2048x2048, w0⟩, ⟨S2048x2048, w1⟩, ⟨S2048x2048, w2⟩, ⟨S2048x2048, w3⟩] h j
    0 (by show 0 < 4; omega) S2048x2048 w0 rfl rfl 0 rfl (ix2 k q)
    (fun b hb => match b with
      | ⟨0, _⟩ => h0.symm
      | ⟨1, _⟩ => absurd rfl hb)
    (by show 0 + q.val = (j 1).val; omega)

/-- Piece 1 of four [2048, 2048] matrices laid side by side: the joined matrix at row `k`, column `2048 + q`
    is matrix 1 at `(k, q)`. -/
theorem cat2_piece1 (w0 w1 w2 w3 : S2048x2048.Idx → α)
    (h : Shape.Concatenates [S2048x2048, S2048x2048, S2048x2048, S2048x2048] S2048x8192 1)
    (j : S2048x8192.Idx) (k q : Fin 2048) (h0 : (j 0).val = k.val) (h1 : (j 1).val = 2048 + q.val) :
    concatenate S2048x8192 1 [⟨S2048x2048, w0⟩, ⟨S2048x2048, w1⟩, ⟨S2048x2048, w2⟩, ⟨S2048x2048, w3⟩] h j = w1 (ix2 k q) :=
  concatenate_apply_piece (t := S2048x8192) 1 [⟨S2048x2048, w0⟩, ⟨S2048x2048, w1⟩, ⟨S2048x2048, w2⟩, ⟨S2048x2048, w3⟩] h j
    1 (by show 1 < 4; omega) S2048x2048 w1 rfl rfl 2048 rfl (ix2 k q)
    (fun b hb => match b with
      | ⟨0, _⟩ => h0.symm
      | ⟨1, _⟩ => absurd rfl hb)
    (by show 2048 + q.val = (j 1).val; omega)

/-- Piece 2 of four [2048, 2048] matrices laid side by side: the joined matrix at row `k`, column `4096 + q`
    is matrix 2 at `(k, q)`. -/
theorem cat2_piece2 (w0 w1 w2 w3 : S2048x2048.Idx → α)
    (h : Shape.Concatenates [S2048x2048, S2048x2048, S2048x2048, S2048x2048] S2048x8192 1)
    (j : S2048x8192.Idx) (k q : Fin 2048) (h0 : (j 0).val = k.val) (h1 : (j 1).val = 4096 + q.val) :
    concatenate S2048x8192 1 [⟨S2048x2048, w0⟩, ⟨S2048x2048, w1⟩, ⟨S2048x2048, w2⟩, ⟨S2048x2048, w3⟩] h j = w2 (ix2 k q) :=
  concatenate_apply_piece (t := S2048x8192) 1 [⟨S2048x2048, w0⟩, ⟨S2048x2048, w1⟩, ⟨S2048x2048, w2⟩, ⟨S2048x2048, w3⟩] h j
    2 (by show 2 < 4; omega) S2048x2048 w2 rfl rfl 4096 rfl (ix2 k q)
    (fun b hb => match b with
      | ⟨0, _⟩ => h0.symm
      | ⟨1, _⟩ => absurd rfl hb)
    (by show 4096 + q.val = (j 1).val; omega)

/-- Piece 3 of four [2048, 2048] matrices laid side by side: the joined matrix at row `k`, column `6144 + q`
    is matrix 3 at `(k, q)`. -/
theorem cat2_piece3 (w0 w1 w2 w3 : S2048x2048.Idx → α)
    (h : Shape.Concatenates [S2048x2048, S2048x2048, S2048x2048, S2048x2048] S2048x8192 1)
    (j : S2048x8192.Idx) (k q : Fin 2048) (h0 : (j 0).val = k.val) (h1 : (j 1).val = 6144 + q.val) :
    concatenate S2048x8192 1 [⟨S2048x2048, w0⟩, ⟨S2048x2048, w1⟩, ⟨S2048x2048, w2⟩, ⟨S2048x2048, w3⟩] h j = w3 (ix2 k q) :=
  concatenate_apply_piece (t := S2048x8192) 1 [⟨S2048x2048, w0⟩, ⟨S2048x2048, w1⟩, ⟨S2048x2048, w2⟩, ⟨S2048x2048, w3⟩] h j
    3 (by show 3 < 4; omega) S2048x2048 w3 rfl rfl 6144 rfl (ix2 k q)
    (fun b hb => match b with
      | ⟨0, _⟩ => h0.symm
      | ⟨1, _⟩ => absurd rfl hb)
    (by show 6144 + q.val = (j 1).val; omega)

/-- Piece 0 of four vectors of length 2048 laid end to end: the joined vector at `q` is vector 0 at `q`. -/
theorem cat1_piece0 (b0 b1 b2 b3 : S2048.Idx → α)
    (h : Shape.Concatenates [S2048, S2048, S2048, S2048] S8192 0)
    (j : S8192.Idx) (q : Fin 2048) (h0 : (j 0).val = q.val) :
    concatenate S8192 0 [⟨S2048, b0⟩, ⟨S2048, b1⟩, ⟨S2048, b2⟩, ⟨S2048, b3⟩] h j = b0 (ix1 q) :=
  concatenate_apply_piece (t := S8192) 0 [⟨S2048, b0⟩, ⟨S2048, b1⟩, ⟨S2048, b2⟩, ⟨S2048, b3⟩] h j
    0 (by show 0 < 4; omega) S2048 b0 rfl rfl 0 rfl (ix1 q)
    (fun b hb => match b with
      | ⟨0, _⟩ => absurd rfl hb)
    (by show 0 + q.val = (j 0).val; omega)

/-- Piece 1 of four vectors of length 2048 laid end to end: the joined vector at `2048 + q` is vector 1 at `q`. -/
theorem cat1_piece1 (b0 b1 b2 b3 : S2048.Idx → α)
    (h : Shape.Concatenates [S2048, S2048, S2048, S2048] S8192 0)
    (j : S8192.Idx) (q : Fin 2048) (h0 : (j 0).val = 2048 + q.val) :
    concatenate S8192 0 [⟨S2048, b0⟩, ⟨S2048, b1⟩, ⟨S2048, b2⟩, ⟨S2048, b3⟩] h j = b1 (ix1 q) :=
  concatenate_apply_piece (t := S8192) 0 [⟨S2048, b0⟩, ⟨S2048, b1⟩, ⟨S2048, b2⟩, ⟨S2048, b3⟩] h j
    1 (by show 1 < 4; omega) S2048 b1 rfl rfl 2048 rfl (ix1 q)
    (fun b hb => match b with
      | ⟨0, _⟩ => absurd rfl hb)
    (by show 2048 + q.val = (j 0).val; omega)

/-- Piece 2 of four vectors of length 2048 laid end to end: the joined vector at `4096 + q` is vector 2 at `q`. -/
theorem cat1_piece2 (b0 b1 b2 b3 : S2048.Idx → α)
    (h : Shape.Concatenates [S2048, S2048, S2048, S2048] S8192 0)
    (j : S8192.Idx) (q : Fin 2048) (h0 : (j 0).val = 4096 + q.val) :
    concatenate S8192 0 [⟨S2048, b0⟩, ⟨S2048, b1⟩, ⟨S2048, b2⟩, ⟨S2048, b3⟩] h j = b2 (ix1 q) :=
  concatenate_apply_piece (t := S8192) 0 [⟨S2048, b0⟩, ⟨S2048, b1⟩, ⟨S2048, b2⟩, ⟨S2048, b3⟩] h j
    2 (by show 2 < 4; omega) S2048 b2 rfl rfl 4096 rfl (ix1 q)
    (fun b hb => match b with
      | ⟨0, _⟩ => absurd rfl hb)
    (by show 4096 + q.val = (j 0).val; omega)

/-- Piece 3 of four vectors of length 2048 laid end to end: the joined vector at `6144 + q` is vector 3 at `q`. -/
theorem cat1_piece3 (b0 b1 b2 b3 : S2048.Idx → α)
    (h : Shape.Concatenates [S2048, S2048, S2048, S2048] S8192 0)
    (j : S8192.Idx) (q : Fin 2048) (h0 : (j 0).val = 6144 + q.val) :
    concatenate S8192 0 [⟨S2048, b0⟩, ⟨S2048, b1⟩, ⟨S2048, b2⟩, ⟨S2048, b3⟩] h j = b3 (ix1 q) :=
  concatenate_apply_piece (t := S8192) 0 [⟨S2048, b0⟩, ⟨S2048, b1⟩, ⟨S2048, b2⟩, ⟨S2048, b3⟩] h j
    3 (by show 3 < 4; omega) S2048 b3 rfl rfl 6144 rfl (ix1 q)
    (fun b hb => match b with
      | ⟨0, _⟩ => absurd rfl hb)
    (by show 6144 + q.val = (j 0).val; omega)

end Pieces

/-! ## The logistic function as the reference spells it -/

/-- One over one plus the exponential of the negated argument, with the float literal for one in both places, is the
    logistic function of the extended reals. -/
theorem logistic_spelt (t : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf t)))
      = Ideal.logistic t := by
  rw [Ideal.ofBits_def, Ideal.ofBits_one_f32]
  rfl

/-! ## The four gates' pre-activations -/

section Gates
variable (x0 x1 x2 : (⟨S1x4096x2048, .f32⟩ : BufTy).Contents (Elt Ideal))
  (x3 x4 x5 x6 x7 x8 x9 x10 : (⟨S2048x2048, .f32⟩ : BufTy).Contents (Elt Ideal))
  (x11 x12 x13 x14 : (⟨S2048, .f32⟩ : BufTy).Contents (Elt Ideal))

/-- Dropping the leading axis of extent one: the [4096, 2048] view at `(p, k)` is the [1, 4096, 2048] array at `(0, p, k)`.
    (The program takes this view of `x`, of `h` and of `c`; the three are one and the same function of the array, so
    this one statement serves all three.) -/
theorem flat_at (x : (⟨S1x4096x2048, .f32⟩ : BufTy).Contents (Elt Ideal)) (j : S4096x2048.Idx) (p : Fin 4096) (k : Fin 2048)
    (h0 : (j 0).val = p.val) (h1 : (j 1).val = k.val) :
    Read.val_main_v0 (F := Ideal) x j = x (ix3 (0 : Fin 1) p k) := by
  rw [Read.val_main_v0_apply]
  refine congrArg x (funext fun a => Fin.ext ?_)
  match a with
  | ⟨0, _⟩ => rfl
  | ⟨1, _⟩ => show ((j 0).val * 2048 + (j 1).val) / 2048 % 4096 = p.val; omega
  | ⟨2, _⟩ => show ((j 0).val * 2048 + (j 1).val) % 2048 = k.val; omega

/-- The joint pre-activation array at an entry, from what the three joined arrays read there: if at column `(j 1)` the
    joined input weights read `wx` at column `q`, the joined hidden weights `wh` and the joined biases `b`, then the
    entry at row `p` is the pre-activation of the gate with those arrays at `(p, q)`. -/
theorem pre_of_pieces (j : S4096x8192.Idx) (p : Fin 4096) (q : Fin 2048)
    (wx wh : (⟨S2048x2048, .f32⟩ : BufTy).Contents (Elt Ideal)) (b : (⟨S2048, .f32⟩ : BufTy).Contents (Elt Ideal))
    (h0 : (j 0).val = p.val)
    (hx : ∀ k : Fin 2048, Read.val_main_v3 (F := Ideal) x3 x5 x7 x9 (Read.ridx_main_v6 j k) = wx (ix2 k q))
    (hh : ∀ k : Fin 2048, Read.val_main_v4 (F := Ideal) x4 x6 x8 x10 (Read.ridx_main_v7 j k) = wh (ix2 k q))
    (hb : Read.val_main_v5 (F := Ideal) x11 x12 x13 x14 (Read.idx_main_v9 (Read.idx_main_v10 j)) = b (ix1 q)) :
    Read.val_main_v11 (F := Ideal) x0 x1 x3 x4 x5 x6 x7 x8 x9 x10 x11 x12 x13 x14 j = pre x0 x1 wx wh b p q := by
  rw [Read.val_main_v11_apply, Read.val_main_v8_apply, Read.val_main_v6_apply, Read.val_main_v7_apply,
    Read.val_main_v10_apply, Read.val_main_v9_apply, hb]
  unfold pre
  refine congrArg₂ (· + ·) (congrArg₂ (· + ·) (Finset.sum_congr rfl fun k _ => ?_) (Finset.sum_congr rfl fun k _ => ?_)) rfl
  · rw [hx k, flat_at x0 _ p k h0 rfl]
  · rw [hh k]
    exact congrArg (· * _) (flat_at x1 _ p k h0 rfl)

/-- The input gate's columns of the joint pre-activation array: at row `p`, column `q` it is that gate's
    pre-activation at `(p, q)`. -/
theorem pre_input (j : S4096x8192.Idx) (p : Fin 4096) (q : Fin 2048) (h0 : (j 0).val = p.val)
    (h1 : (j 1).val = q.val) :
    Read.val_main_v11 (F := Ideal) x0 x1 x3 x4 x5 x6 x7 x8 x9 x10 x11 x12 x13 x14 j = pre x0 x1 x3 x4 x11 p q :=
  pre_of_pieces x0 x1 x3 x4 x5 x6 x7 x8 x9 x10 x11 x12 x13 x14 j p q x3 x4 x11 h0
    (fun k => by unfold Read.val_main_v3; exact cat2_piece0 _ _ _ _ _ _ k q rfl h1)
    (fun k => by unfold Read.val_main_v4; exact cat2_piece0 _ _ _ _ _ _ k q rfl h1)
    (by unfold Read.val_main_v5; exact cat1_piece0 _ _ _ _ _ _ q h1)

/-- The forget gate's columns of the joint pre-activation array: at row `p`, column `2048 + q` it is that gate's
    pre-activation at `(p, q)`. -/
theorem pre_forget (j : S4096x8192.Idx) (p : Fin 4096) (q : Fin 2048) (h0 : (j 0).val = p.val)
    (h1 : (j 1).val = 2048 + q.val) :
    Read.val_main_v11 (F := Ideal) x0 x1 x3 x4 x5 x6 x7 x8 x9 x10 x11 x12 x13 x14 j = pre x0 x1 x5 x6 x12 p q :=
  pre_of_pieces x0 x1 x3 x4 x5 x6 x7 x8 x9 x10 x11 x12 x13 x14 j p q x5 x6 x12 h0
    (fun k => by unfold Read.val_main_v3; exact cat2_piece1 _ _ _ _ _ _ k q rfl h1)
    (fun k => by unfold Read.val_main_v4; exact cat2_piece1 _ _ _ _ _ _ k q rfl h1)
    (by unfold Read.val_main_v5; exact cat1_piece1 _ _ _ _ _ _ q h1)

/-- The output gate's columns of the joint pre-activation array: at row `p`, column `4096 + q` it is that gate's
    pre-activation at `(p, q)`. -/
theorem pre_output (j : S4096x8192.Idx) (p : Fin 4096) (q : Fin 2048) (h0 : (j 0).val = p.val)
    (h1 : (j 1).val = 4096 + q.val) :
    Read.val_main_v11 (F := Ideal) x0 x1 x3 x4 x5 x6 x7 x8 x9 x10 x11 x12 x13 x14 j = pre x0 x1 x7 x8 x13 p q :=
  pre_of_pieces x0 x1 x3 x4 x5 x6 x7 x8 x9 x10 x11 x12 x13 x14 j p q x7 x8 x13 h0
    (fun k => by unfold Read.val_main_v3; exact cat2_piece2 _ _ _ _ _ _ k q rfl h1)
    (fun k => by unfold Read.val_main_v4; exact cat2_piece2 _ _ _ _ _ _ k q rfl h1)
    (by unfold Read.val_main_v5; exact cat1_piece2 _ _ _ _ _ _ q h1)

/-- The candidate gate's columns of the joint pre-activation array: at row `p`, column `6144 + q` it is that gate's
    pre-activation at `(p, q)`. -/
theorem pre_cand (j : S4096x8192.Idx) (p : Fin 4096) (q : Fin 2048) (h0 : (j 0).val = p.val)
    (h1 : (j 1).val = 6144 + q.val) :
    Read.val_main_v11 (F := Ideal) x0 x1 x3 x4 x5 x6 x7 x8 x9 x10 x11 x12 x13 x14 j = pre x0 x1 x9 x10 x14 p q :=
  pre_of_pieces x0 x1 x3 x4 x5 x6 x7 x8 x9 x10 x11 x12 x13 x14 j p q x9 x10 x14 h0
    (fun k => by unfold Read.val_main_v3; exact cat2_piece3 _ _ _ _ _ _ k q rfl h1)
    (fun k => by unfold Read.val_main_v4; exact cat2_piece3 _ _ _ _ _ _ k q rfl h1)
    (by unfold Read.val_main_v5; exact cat1_piece3 _ _ _ _ _ _ q h1)

/-! ## The gates after their nonlinearities, the cell and the hidden state -/

/-- The input gate after the logistic function, at `(p, q)`. -/
theorem sig_input (j : S4096x2048.Idx) (p : Fin 4096) (q : Fin 2048) (h0 : (j 0).val = p.val) (h1 : (j 1).val = q.val) :
    Read.val_main_v21 (F := Ideal) x0 x1 x3 x4 x5 x6 x7 x8 x9 x10 x11 x12 x13 x14 j = Ideal.logistic (pre x0 x1 x3 x4 x11 p q) := by
  rw [Read.val_main_v21_apply, Read.val_main_v20_apply, Read.val_main_cst_0_apply, Read.val_main_v19_apply,
    Read.val_main_v18_apply, Read.val_main_cst_apply, Read.val_main_v17_apply, Read.val_main_v16_apply,
    Read.val_main_v12_apply, pre_input x0 x1 x3 x4 x5 x6 x7 x8 x9 x10 x11 x12 x13 x14 _ p q h0 (by show (j 1).val = _; omega), logistic_spelt]

/-- The forget gate after the logistic function, at `(p, q)`. -/
theorem sig_forget (j : S4096x2048.Idx) (p : Fin 4096) (q : Fin 2048) (h0 : (j 0).val = p.val) (h1 : (j 1).val = q.val) :
    Read.val_main_v27 (F := Ideal) x0 x1 x3 x4 x5 x6 x7 x8 x9 x10 x11 x12 x13 x14 j = Ideal.logistic (pre x0 x1 x5 x6 x12 p q) := by
  rw [Read.val_main_v27_apply, Read.val_main_v26_apply, Read.val_main_cst_2_apply, Read.val_main_v25_apply,
    Read.val_main_v24_apply, Read.val_main_cst_1_apply, Read.val_main_v23_apply, Read.val_main_v22_apply,
    Read.val_main_v13_apply, pre_forget x0 x1 x3 x4 x5 x6 x7 x8 x9 x10 x11 x12 x13 x14 _ p q h0 (by show 2048 + (j 1).val = _; omega), logistic_spelt]

/-- The output gate after the logistic function, at `(p, q)`. -/
theorem sig_output (j : S4096x2048.Idx) (p : Fin 4096) (q : Fin 2048) (h0 : (j 0).val = p.val) (h1 : (j 1).val = q.val) :
    Read.val_main_v33 (F := Ideal) x0 x1 x3 x4 x5 x6 x7 x8 x9 x10 x11 x12 x13 x14 j = Ideal.logistic (pre x0 x1 x7 x8 x13 p q) := by
  rw [Read.val_main_v33_apply, Read.val_main_v32_apply, Read.val_main_cst_4_apply, Read.val_main_v31_apply,
    Read.val_main_v30_apply, Read.val_main_cst_3_apply, Read.val_main_v29_apply, Read.val_main_v28_apply,
    Read.val_main_v14_apply, pre_output x0 x1 x3 x4 x5 x6 x7 x8 x9 x10 x11 x12 x13 x14 _ p q h0 (by show 4096 + (j 1).val = _; omega), logistic_spelt]

/-- The candidate after tanh, at `(p, q)`. -/
theorem tanh_cand (j : S4096x2048.Idx) (p : Fin 4096) (q : Fin 2048) (h0 : (j 0).val = p.val) (h1 : (j 1).val = q.val) :
    Read.val_main_v35 (F := Ideal) x0 x1 x3 x4 x5 x6 x7 x8 x9 x10 x11 x12 x13 x14 j = Ideal.tanh (pre x0 x1 x9 x10 x14 p q) := by
  rw [Read.val_main_v35_apply, Read.val_main_v15_apply, pre_cand x0 x1 x3 x4 x5 x6 x7 x8 x9 x10 x11 x12 x13 x14 _ p q h0 (by show 6144 + (j 1).val = _; omega)]
  rfl

/-- The reference's new cell state before the leading axis is put back, at `(p, q)`. -/
theorem cell_at (j : S4096x2048.Idx) (p : Fin 4096) (q : Fin 2048) (h0 : (j 0).val = p.val) (h1 : (j 1).val = q.val) :
    Read.val_main_v37 (F := Ideal) x0 x1 x2 x3 x4 x5 x6 x7 x8 x9 x10 x11 x12 x13 x14 j = cellAt x0 x1 x2 x3 x4 x5 x6 x9 x10 x11 x12 x14 p q := by
  rw [Read.val_main_v37_apply, Read.val_main_v34_apply, Read.val_main_v36_apply, sig_forget x0 x1 x3 x4 x5 x6 x7 x8 x9 x10 x11 x12 x13 x14 j p q h0 h1,
    sig_input x0 x1 x3 x4 x5 x6 x7 x8 x9 x10 x11 x12 x13 x14 j p q h0 h1, tanh_cand x0 x1 x3 x4 x5 x6 x7 x8 x9 x10 x11 x12 x13 x14 j p q h0 h1]
  unfold cellAt
  exact congrArg (· * _ + _) (flat_at x2 j p q h0 h1)

/-- The reference's new hidden state before the leading axis is put back, at `(p, q)`. -/
theorem hid_at (j : S4096x2048.Idx) (p : Fin 4096) (q : Fin 2048) (h0 : (j 0).val = p.val) (h1 : (j 1).val = q.val) :
    Read.val_main_v39 (F := Ideal) x0 x1 x2 x3 x4 x5 x6 x7 x8 x9 x10 x11 x12 x13 x14 j = hidAt x0 x1 x2 x3 x4 x5 x6 x7 x8 x9 x10 x11 x12 x13 x14 p q := by
  rw [Read.val_main_v39_apply, Read.val_main_v38_apply, sig_output x0 x1 x3 x4 x5 x6 x7 x8 x9 x10 x11 x12 x13 x14 j p q h0 h1, cell_at x0 x1 x2 x3 x4 x5 x6 x7 x8 x9 x10 x11 x12 x13 x14 j p q h0 h1]
  rfl

end Gates

/-! ## The two results -/

/-- The reference's first result is the specification's new hidden state. -/
theorem ref_hid (x0 x1 x2 : (⟨S1x4096x2048, .f32⟩ : BufTy).Contents (Elt Ideal)) (x3 x4 x5 x6 x7 x8 x9 x10 : (⟨S2048x2048, .f32⟩ : BufTy).Contents (Elt Ideal)) (x11 x12 x13 x14 : (⟨S2048, .f32⟩ : BufTy).Contents (Elt Ideal)) :
    Cert.ReferenceIdeal.Read.val_main_v40 (F := Ideal) x0 x1 x2 x3 x4 x5 x6 x7 x8 x9 x10 x11 x12 x13 x14 = Cert.LstmCell.hid x0 x1 x2 x3 x4 x5 x6 x7 x8 x9 x10 x11 x12 x13 x14 := by
  funext i
  obtain ⟨a, p, q, rfl⟩ : ∃ (a : Fin 1) (p : Fin 4096) (q : Fin 2048), i = ix3 a p q := ⟨i 0, i 1, i 2, eq_ix3 i⟩
  rw [Read.val_main_v40_apply, hid_ix3]
  exact hid_at x0 x1 x2 x3 x4 x5 x6 x7 x8 x9 x10 x11 x12 x13 x14 _ p q rfl rfl

/-- The reference's second result is the specification's new cell state. -/
theorem ref_cell (x0 x1 x2 : (⟨S1x4096x2048, .f32⟩ : BufTy).Contents (Elt Ideal)) (x3 x4 x5 x6 x7 x8 x9 x10 : (⟨S2048x2048, .f32⟩ : BufTy).Contents (Elt Ideal)) (x11 x12 x13 x14 : (⟨S2048, .f32⟩ : BufTy).Contents (Elt Ideal)) :
    Cert.ReferenceIdeal.Read.val_main_v41 (F := Ideal) x0 x1 x2 x3 x4 x5 x6 x7 x8 x9 x10 x11 x12 x13 x14 = Cert.LstmCell.cell x0 x1 x2 x3 x4 x5 x6 x7 x8 x9 x10 x11 x12 x13 x14 := by
  funext i
  obtain ⟨a, p, q, rfl⟩ : ∃ (a : Fin 1) (p : Fin 4096) (q : Fin 2048), i = ix3 a p q := ⟨i 0, i 1, i 2, eq_ix3 i⟩
  rw [Read.val_main_v41_apply, cell_ix3]
  exact cell_at x0 x1 x2 x3 x4 x5 x6 x7 x8 x9 x10 x11 x12 x13 x14 _ p q rfl rfl

end Cert.LstmCell.RefSide

end
-- ==== Proof.lean ====
/-
  One step of an LSTM cell: a tiled kernel against a plain reference.

  The kernel computes, for a batch of 4096 rows and 2048 features, the four gates' pre-activations
      (sum over k of x[p,k] * wx[k,q]) + (sum over k of h[p,k] * wh[k,q]) + b[q]
  tile by tile (512 rows by 256 columns, 64 tiles), each by two matrix products into zero accumulators and a bias row,
  then c' = c * sigma(forget) + sigma(input) * tanh(candidate) and h' = sigma(output) * tanh(c'). The reference joins the
  four gates' weights side by side and the biases end to end, forms all pre-activations with two large products, slices
  the gates apart again, and spells the logistic function 1 / (1 + e^(-t)).

  Over the extended reals the two are the same function of the arguments, entry by entry, and for a plain reason: a
  matrix product into a zero accumulator and the reference's product are the same sum over the contracted index;
  narrowing to 16 bits, reshaping, tiling, joining and slicing move no value; the logistic function is that spelling;
  and both programs add the two products and the bias in the same order, so no law of addition is used and the
  inputs' finiteness is not needed. Both sides are read against one specification (CellSpec): the kernel's run through
  its tiles (KernelBlock, KernelReads, KernelValue), the reference's run one operation at a time (RefSide).

  The three frame claims are the generated frame of each kernel program and the reference's generated run with its
  results dropped; the idealization rewrote no operation, so its claim is trivial.
-/
import proofs.«144069_j33423435498395_1_alg».proof.Defs
import proofs.«144069_j33423435498395_1_alg».proof.Proof.Gen.Kernel
import proofs.«144069_j33423435498395_1_alg».proof.Proof.Gen.Kernel.Skeleton
import proofs.«144069_j33423435498395_1_alg».proof.Proof.Gen.Kernel.Launch
import proofs.«144069_j33423435498395_1_alg».proof.Proof.Gen.Kernel.Points
import proofs.«144069_j33423435498395_1_alg».proof.Proof.Gen.Kernel.Frame
import proofs.«144069_j33423435498395_1_alg».proof.Proof.Gen.KernelIdeal
import proofs.«144069_j33423435498395_1_alg».proof.Proof.Gen.KernelIdeal.Skeleton
import proofs.«144069_j33423435498395_1_alg».proof.Proof.Gen.KernelIdeal.Launch
import proofs.«144069_j33423435498395_1_alg».proof.Proof.Gen.KernelIdeal.Points
import proofs.«144069_j33423435498395_1_alg».proof.Proof.Gen.KernelIdeal.Frame
import proofs.«144069_j33423435498395_1_alg».proof.Proof.Gen.ReferenceIdeal
import proofs.«144069_j33423435498395_1_alg».proof.Proof.Gen.Pre_finite_inputs
import proofs.«144069_j33423435498395_1_alg».proof.Proof.Gen.ReferenceIdeal.Run
import proofs.«144069_j33423435498395_1_alg».proof.Proof.Gen.ReferenceIdeal.Read
import proofs.«144069_j33423435498395_1_alg».proof.Proof.KernelValue
import proofs.«144069_j33423435498395_1_alg».proof.Proof.RefSide
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments unchanged: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, both programs end at the LSTM step's new hidden state and new cell state of those
    arguments: the kernel's run read through its tiles, the reference's read one operation at a time. -/
theorem algebraic : Cert.algebraic_KernelIdeal_ReferenceIdeal := by
  intro m ρ m' ρ' _ hagree
  refine ⟨fun c => Cert.LstmCell.KernelValue.hidOf m c, fun c => Cert.LstmCell.KernelValue.cellOf m c,
    Cert.LstmCell.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v40_eq, Cert.LstmCell.RefSide.ref_hid, a0, a1, a2, a3, a4, a5, a6, a7, a8, a9, a10,
      a11, a12, a13, a14]
    rfl
  · obtain ⟨a0, a1, a2, a3, a4, a5, a6, a7, a8, a9, a10, a11, a12, a13, a14⟩ := hagree c
    rw [Cert.ReferenceIdeal.Read.val_main_v41_eq, Cert.LstmCell.RefSide.ref_cell, a0, a1, a2, a3, a4, a5, a6, a7, a8, a9, a10,
      a11, a12, a13, a14]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
